-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big" .f32 0xF149F2CA#32 ⊥
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S55x512 : Shape := ⟨2, ![55, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S55x512 : S_.BroadcastsInDim S55x512 (![] : Fin 0 → Fin S55x512.rank)
  reducesTo_S55x512_S_d0_1 : S55x512.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) (main_arg2 : FVec F S55x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S55x512 .f32 := Host.absf main_arg2
  let main_cst_0 : FVec F S_ .f32 := constant S_ .f32 0x7F800000#32
  let main_v5 : FVec F S55x512 .f32 := broadcastInDim S55x512 ![] bcast_S_S55x512 main_cst_0
  let main_v6 : IVec S55x512 1 := cmpf .olt main_v4 main_v5
  let main_c_1 : IVec S_ 1 := constantI S_ 1 1#1
  let main_v7 : IVec S_ 1 := (fun x v => Host.reduce IntOp.andi x v reducesTo_S55x512_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 55#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x512 : Shape := ⟨2, ![8192, 512]⟩
abbrev S8192 : Shape := ⟨1, ![8192]⟩
abbrev S55x512 : Shape := ⟨2, ![55, 512]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192 : Shape := ⟨2, ![1, 8192]⟩
abbrev S2048x512 : Shape := ⟨2, ![2048, 512]⟩
abbrev S512x512 : Shape := ⟨2, ![512, 512]⟩
abbrev S2048x1 : Shape := ⟨2, ![2048, 1]⟩
abbrev S1x512 : Shape := ⟨2, ![1, 512]⟩
abbrev S2048 : Shape := ⟨1, ![2048]⟩

abbrev nBuf : Space → Nat
  | .hbm => 58
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S55x512, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x512, .f32⟩
  | .hbm, ⟨22, _⟩ => ⟨S8192x512, .i1⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x512, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S1x8192, .f32⟩
  | .hbm, ⟨35, _⟩ => ⟨S8192x1, .i32⟩
  | .hbm, ⟨36, _⟩ => ⟨S1x8192, .i32⟩
  | .hbm, ⟨37, _⟩ => ⟨S8192x1, .f32⟩
  | .hbm, ⟨38, _⟩ => ⟨S8192x1, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S8192, .i1⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x512, .f32⟩
  | .local _ .vmem, ⟨4, _⟩ => ⟨S2048x1, .f32⟩
  | .local _ .vmem, ⟨5, _⟩ => ⟨S2048x1, .f32⟩
  | .local _ .vmem, ⟨6, _⟩ => ⟨S1x512, .f32⟩
  | .local _ .vmem, ⟨7, _⟩ => ⟨S1x512, .f32⟩
  | .local _ .vmem, ⟨8, _⟩ => ⟨S2048x1, .i32⟩
  | .local _ .vmem, ⟨9, _⟩ => ⟨S2048x1, .i32⟩
  | .local _ .vmem, ⟨10, _⟩ => ⟨S1x512, .i32⟩
  | .local _ .vmem, ⟨11, _⟩ => ⟨S1x512, .i32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10_0 : Ref sig .tc := ⟨.hbm, 37, rfl⟩
abbrev main_v10_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x512_0 : S8192.BroadcastsInDim S8192x512 (![0] : Fin 1 → Fin S8192x512.rank)
  bcast_S_S8192x512 : S_.BroadcastsInDim S8192x512 (![] : Fin 0 → Fin S8192x512.rank)
  reducesTo_S8192x512_S8192_d1 : S8192x512.ReducesTo [1] S8192
  shapeCasts_S8192x1_S1x8192 : S8192x1.ShapeCasts S1x8192
  shapeCasts_S8192_S8192x1 : S8192.ShapeCasts S8192x1
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  reduces_S2048x512_S2048 : S2048x512.Reduces [1] S2048
  shapeCasts_S2048_S2048x1 : S2048.ShapeCasts S2048x1
  shapeCasts_S8192x1_S8192 : S8192x1.ShapeCasts S8192
  reducesTo_S8192_S_d0 : S8192.ReducesTo [0] S_
  gather_S55x512_S8192x1_S8192x512_1_0_n_n_0_1_1512_wf : GatherDims.WF S55x512 S8192x1 S8192x512 [1] [0] [] [0] [] 1 ![1, 512]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .i32 = 32 ∨ (Rect.block (s := S8192x1) S2048x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S8192x1.size a
  hwx0_6 : ∀ i : grid0.Coords, EltTy.bits .f32 = 32 ∨ (Rect.block (s := S8192x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S8192x1.size a
  hwx0_7 : ∀ i : grid0.Coords, EltTy.bits .f32 = 32 ∨ (Rect.block (s := S8192x1) S2048x1.size (cc0_transform_7 i) (hinb0_7 i)).WholeWords (EltTy.packing .f32)

variable [Facts₀]

def gather_S55x512_S8192x1_S8192x512_1_0_n_n_0_1_1512 : GatherDims S55x512 S8192x1 S8192x512 where
  offsetDims := [1]
  collapsedSliceDims := [0]
  operandBatchingDims := []
  startIndicesBatchingDims := []
  startIndexMap := [0]
  indexVectorDim := 1
  sliceSizes := ![1, 512]
  wf := gather_S55x512_S8192x1_S8192x512_1_0_n_n_0_1_1512_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S2048x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S55x512 : Shape := ⟨2, ![55, 512]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S55x512, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S512x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8192, .i1⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x512_S8192_d1 : S8192x512.ReducesTo [1] S8192
  h_S_ : 0 < S_.numel
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  gather_S55x512_S8192x1_S8192x512_1_0_n_n_0_1_1512_wf : GatherDims.WF S55x512 S8192x1 S8192x512 [1] [0] [] [0] [] 1 ![1, 512]
  dot_S8192x512_S512x8192_S8192x8192_1_0_0_1_n_n_wf : DotDims.WF S8192x512 S512x8192 S8192x8192 [1] [0] [0] [1] [] []

variable [Facts₀]

def gather_S55x512_S8192x1_S8192x512_1_0_n_n_0_1_1512 : GatherDims S55x512 S8192x1 S8192x512 where
  offsetDims := [1]
  collapsedSliceDims := [0]
  operandBatchingDims := []
  startIndicesBatchingDims := []
  startIndexMap := [0]
  indexVectorDim := 1
  sliceSizes := ![1, 512]
  wf := gather_S55x512_S8192x1_S8192x512_1_0_n_n_0_1_1512_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KernelPieces.lean ====
/-
  What one grid point leaves behind, case by case.

  The body keeps two running columns of 2048 entries: the largest same-label distance met so far in each row and the
  smallest other-label distance met so far. At a point it forms the 2048 × 512 block of distances between its rows and
  its 512 columns, reduces the block along the columns (maximum of the positives, minimum of the negatives), and joins
  each reduction with the running column. At the first column block of a row block the running columns start from
  −∞ and +∞; at the last one they are also copied to the two outputs. Below: each buffer's final contents in each
  of the three cases, as the body's own arithmetic applied to the blocks it read.
-/
import proofs.«419089_j1769526526580_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl

/-- First column block of a row block: the running maximum restarts from the −∞ column and joins the block's row maxima. -/
theorem maxCol_first (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i)
    (x0 : Vec F S2048x512 .f32) (x1 : Vec F S512x512 .f32) (x2 : Vec F S2048x1 .f32) (x3 : Vec F S1x512 .f32) (x4 : Vec F S2048x1 .i32) (x5 : Vec F S1x512 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay3 (F := F)) (k0_pay8 x0 x1 x2 x3 x4 x5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- First column block of a row block: the running minimum restarts from the +∞ column and meets the block's row minima. -/
theorem minCol_first (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : cond0_0 i) (hc1 : ¬cond0_1 i)
    (x0 : Vec F S2048x512 .f32) (x1 : Vec F S512x512 .f32) (x2 : Vec F S2048x1 .f32) (x3 : Vec F S1x512 .f32) (x4 : Vec F S2048x1 .i32) (x5 : Vec F S1x512 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay7 x0 x1 x2 x3 x4 x5) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- A middle column block: the running maximum the point before left joins the block's row maxima. -/
theorem maxCol_mid (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i)
    (x0 : Vec F S2048x512 .f32) (x1 : Vec F S512x512 .f32) (x2 : Vec F S2048x1 .f32) (x3 : Vec F S1x512 .f32) (x4 : Vec F S2048x1 .i32) (x5 : Vec F S1x512 .i32) (xs0 : Vec F S2048x1 .f32) (xs1 : Vec F S2048x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 xs0 (k0_pay8 x0 x1 x2 x3 x4 x5) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- A middle column block: the running minimum the point before left meets the block's row minima. -/
theorem minCol_mid (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : ¬cond0_1 i)
    (x0 : Vec F S2048x512 .f32) (x1 : Vec F S512x512 .f32) (x2 : Vec F S2048x1 .f32) (x3 : Vec F S1x512 .f32) (x4 : Vec F S2048x1 .i32) (x5 : Vec F S1x512 .i32) (xs0 : Vec F S2048x1 .f32) (xs1 : Vec F S2048x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay7 x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- Last column block: the running maximum is updated as at a middle block. -/
theorem maxCol_last (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i)
    (x0 : Vec F S2048x512 .f32) (x1 : Vec F S512x512 .f32) (x2 : Vec F S2048x1 .f32) (x3 : Vec F S1x512 .f32) (x4 : Vec F S2048x1 .i32) (x5 : Vec F S1x512 .i32) (xs0 : Vec F S2048x1 .f32) (xs1 : Vec F S2048x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 xs0 (k0_pay8 x0 x1 x2 x3 x4 x5) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- Last column block: the running minimum is updated as at a middle block. -/
theorem minCol_last (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i)
    (x0 : Vec F S2048x512 .f32) (x1 : Vec F S512x512 .f32) (x2 : Vec F S2048x1 .f32) (x3 : Vec F S1x512 .f32) (x4 : Vec F S2048x1 .i32) (x5 : Vec F S1x512 .i32) (xs0 : Vec F S2048x1 .f32) (xs1 : Vec F S2048x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay7 x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- Last column block: the first output's block is the updated running maximum, read back. -/
theorem outMax_last (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i)
    (x0 : Vec F S2048x512 .f32) (x1 : Vec F S512x512 .f32) (x2 : Vec F S2048x1 .f32) (x3 : Vec F S1x512 .f32) (x4 : Vec F S2048x1 .i32) (x5 : Vec F S1x512 .i32) (xs0 : Vec F S2048x1 .f32) (xs1 : Vec F S2048x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 xs0 (k0_pay8 x0 x1 x2 x3 x4 x5) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]
/-- Last column block: the second output's block is the updated running minimum, read back. -/
theorem outMin_last (c : Dev nD) (i : grid0.Coords) (arg2 : Memref sig .tc .vmem S2048x512 .f32) (harg2 : arg2.IsWhole) (arg3 : Memref sig .tc .vmem S512x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S2048x1 .i32) (harg6 : arg6.IsWhole) (arg7 : Memref sig .tc .vmem S1x512 .i32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (arg11 : Memref sig .tc .vmem S2048x1 .f32) (harg11 : arg11.IsWhole) (hc0 : ¬cond0_0 i) (hc1 : cond0_1 i)
    (x0 : Vec F S2048x512 .f32) (x1 : Vec F S512x512 .f32) (x2 : Vec F S2048x1 .f32) (x3 : Vec F S1x512 .f32) (x4 : Vec F S2048x1 .i32) (x5 : Vec F S1x512 .i32) (xs0 : Vec F S2048x1 .f32) (xs1 : Vec F S2048x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay7 x0 x1 x2 x3 x4 x5) xs1 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S2048x1) hz, View.ld_unit_zero (S := S2048x512) hz, View.ld_unit_zero (S := S512x512) hz, View.ld_unit_zero (S := S1x512) hz, View.readCov_unit_zero (S := S2048x1) _ hz]

end Cert.KernelIdeal.Pieces

end
-- ==== Proof.MiningSpec.lean ====
/-
  The mathematics of triplet-centre mining, stated once over plain index functions.

  For a batch of 8192 feature rows `X R` (512 wide), the centre rows `Y C` each label selects, their squared
  norms `sx R`, `sy C` and the labels `ti R`, `tj C`, the distance from row `R` to centre `C` is
  `√(max ε ((sx R + sy C) − 2 · Σ_d X R d · Y C d))`. The hardest positive of row `R` is the largest distance over
  the columns carrying `R`'s label (the others count as −∞), the hardest negative the smallest distance over the
  columns of another label (those of the same label count as +∞). Both programs then average
  `max (ap − an + margin) 0` and the indicator of `an > ap` over the rows.

  A maximum over the 8192 columns is the running maximum over 16 consecutive groups of 512 columns, started at −∞:
  that is the only law that joins a column-blocked evaluation to the whole-row one, and it holds in any linear order
  with a bottom (dually for the minimum), so nothing here asks the entries to be finite.
-/
import Idealize.ShloMosaic.PureOps.Ideal
import Idealize.ShloMosaic.PureOps.Ideal.Laws
import Idealize.ShloMosaic.Lib.ValueIdx

noncomputable section

namespace Cert.Mining

open Idealize.ShloMosaic

/-- The clamp under the square root, `f32 1e-12` as both programs print it. -/
def eps : EReal := Ideal.ofBits .f32 0x2B8CBCCC#32
/-- The factor of the cross term, `f32 2.0`. -/
def two : EReal := Ideal.ofBits .f32 0x40000000#32

/-- The clamped Euclidean distance through the quadratic expansion. -/
def dist (X Y : Fin 8192 → Fin 512 → EReal) (sx sy : Fin 8192 → EReal) (R C : Fin 8192) : EReal :=
  Ideal.sqrt (max eps ((sx R + sy C) - two * ∑ d : Fin 512, X R d * Y C d))

/-- Whether row `R` and column `C` carry one label, as the one-bit word the comparison delivers. -/
def same (ti tj : Fin 8192 → BitVec 32) (R C : Fin 8192) : BitVec 1 := IntOp.cmpi .eq (ti R) (tj C)

/-- The entry the positive mining maximises: the distance on a same-label column, −∞ elsewhere. -/
def posEntry (X Y : Fin 8192 → Fin 512 → EReal) (sx sy : Fin 8192 → EReal) (ti tj : Fin 8192 → BitVec 32)
    (R C : Fin 8192) : EReal :=
  Scalar.select (same ti tj R C) (dist X Y sx sy R C) ⊥

/-- The entry the negative mining minimises: +∞ on a same-label column, the distance elsewhere. -/
def negEntry (X Y : Fin 8192 → Fin 512 → EReal) (sx sy : Fin 8192 → EReal) (ti tj : Fin 8192 → BitVec 32)
    (R C : Fin 8192) : EReal :=
  Scalar.select (same ti tj R C) ⊤ (dist X Y sx sy R C)

/-- The hardest positive of row `R`: the maximum of its positive entries over all columns. -/
def hardPos (X Y : Fin 8192 → Fin 512 → EReal) (sx sy : Fin 8192 → EReal) (ti tj : Fin 8192 → BitVec 32)
    (R : Fin 8192) : EReal :=
  (Finset.univ : Finset (Fin 8192)).fold max ⊥ (posEntry X Y sx sy ti tj R)

/-- The hardest negative of row `R`: the minimum of its negative entries over all columns. -/
def hardNeg (X Y : Fin 8192 → Fin 512 → EReal) (sx sy : Fin 8192 → EReal) (ti tj : Fin 8192 → BitVec 32)
    (R : Fin 8192) : EReal :=
  (Finset.univ : Finset (Fin 8192)).fold min ⊤ (negEntry X Y sx sy ti tj R)

/-! ## A row extremum as a running extremum over 16 groups of 512 columns -/

/-- Column `k` of group `n`. -/
def col (n : Fin 16) (k : Fin 512) : Fin 8192 := ⟨512 * n.val + k.val, by have := n.isLt; have := k.isLt; omega⟩

/-- The maximum of `f` over the columns of the first `n` groups. -/
def runMax (f : Fin 8192 → EReal) (n : ℕ) : EReal :=
  (Finset.univ.filter fun C : Fin 8192 => C.val < 512 * n).fold max ⊥ f

/-- The minimum of `f` over the columns of the first `n` groups. -/
def runMin (f : Fin 8192 → EReal) (n : ℕ) : EReal :=
  (Finset.univ.filter fun C : Fin 8192 => C.val < 512 * n).fold min ⊤ f

/-- The maximum of `f` over group `n`. -/
def grpMax (f : Fin 8192 → EReal) (n : Fin 16) : EReal :=
  (Finset.univ : Finset (Fin 512)).fold max ⊥ fun k => f (col n k)

/-- The minimum of `f` over group `n`. -/
def grpMin (f : Fin 8192 → EReal) (n : Fin 16) : EReal :=
  (Finset.univ : Finset (Fin 512)).fold min ⊤ fun k => f (col n k)

theorem runMax_zero (f : Fin 8192 → EReal) : runMax f 0 = ⊥ := by
  unfold runMax
  rw [Finset.filter_false_of_mem (fun C _ => by omega)]
  rfl

theorem runMin_zero (f : Fin 8192 → EReal) : runMin f 0 = ⊤ := by
  unfold runMin
  rw [Finset.filter_false_of_mem (fun C _ => by omega)]
  rfl

/-- One more group: the running maximum joins that group's maximum. -/
theorem runMax_succ (f : Fin 8192 → EReal) (n : Fin 16) :
    runMax f (n.val + 1) = max (runMax f n.val) (grpMax f n) := by
  refine eq_of_forall_ge_iff fun a => ?_
  unfold runMax grpMax
  simp only [Finset.fold_max_le, max_le_iff, bot_le, true_and, Finset.mem_filter, Finset.mem_univ, true_imp_iff]
  constructor
  · intro h
    refine ⟨fun C hC => h C (by omega), fun k => ?_⟩
    exact h (col n k) (by show 512 * n.val + k.val < _; have := k.isLt; omega)
  · rintro ⟨h1, h2⟩ C hC
    by_cases hlt : C.val < 512 * n.val
    · exact h1 C hlt
    · have hk : C.val - 512 * n.val < 512 := by omega
      have : C = col n ⟨C.val - 512 * n.val, hk⟩ := Fin.ext (by show C.val = 512 * n.val + (C.val - 512 * n.val); omega)
      rw [this]; exact h2 _

/-- One more group: the running minimum meets that group's minimum. -/
theorem runMin_succ (f : Fin 8192 → EReal) (n : Fin 16) :
    runMin f (n.val + 1) = min (runMin f n.val) (grpMin f n) := by
  refine eq_of_forall_le_iff fun a => ?_
  unfold runMin grpMin
  simp only [Finset.le_fold_min, le_min_iff, le_top, true_and, Finset.mem_filter, Finset.mem_univ, true_imp_iff]
  constructor
  · intro h
    refine ⟨fun C hC => h C (by omega), fun k => ?_⟩
    exact h (col n k) (by show 512 * n.val + k.val < _; have := k.isLt; omega)
  · rintro ⟨h1, h2⟩ C hC
    by_cases hlt : C.val < 512 * n.val
    · exact h1 C hlt
    · have hk : C.val - 512 * n.val < 512 := by omega
      have : C = col n ⟨C.val - 512 * n.val, hk⟩ := Fin.ext (by show C.val = 512 * n.val + (C.val - 512 * n.val); omega)
      rw [this]; exact h2 _

/-- All 16 groups: the whole row. -/
theorem runMax_all (f : Fin 8192 → EReal) : runMax f 16 = (Finset.univ : Finset (Fin 8192)).fold max ⊥ f := by
  unfold runMax
  rw [Finset.filter_true_of_mem (fun C _ => by have := C.isLt; omega)]

theorem runMin_all (f : Fin 8192 → EReal) : runMin f 16 = (Finset.univ : Finset (Fin 8192)).fold min ⊤ f := by
  unfold runMin
  rw [Finset.filter_true_of_mem (fun C _ => by have := C.isLt; omega)]

end Cert.Mining

end
-- ==== Proof.LibColumn.lean ====
/-
  A column kept as a [a, 1] array: the three readings a row reduction with `keepdims` needs.
  A vector of `a` entries cast to [a, 1] reads at (r, 0) its entry r; a [a, 1] column broadcast along a second axis of
  extent b reads at (r, k) the column's entry (r, 0); and the source index of a reduction of a [a, b] array over its
  second axis, at result position r with reduced coordinate k, is (r, k).
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- An `[a]` array cast to `[a, 1]` reads, at `(r, u)`, the operand at `r`, whatever the unit coordinate `u`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- An `[a, 1]` column broadcast to `[a, b]` reads, at `(r, k)`, the column at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

/-- Reducing an `[a, b]` array over its second axis: the source index over result position `r` with reduced
    coordinate `k` is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Cert.LibColumn
-- ==== Proof.KernelBlock.lean ====
/-
  One grid point's arithmetic, read entry by entry at the exact instance.

  For the blocks a point loads — 2048 feature rows `x0`, 512 centre rows `x1`, their squared norms `x2` (a column) and
  `x3` (a row), the row labels `x4` and the column labels `x5` — entry (r, k) of the distance block is
  `√(max ε ((x2 r + x3 k) − 2 · Σ_d x0 r d · x1 k d))`: the product with the transposed centre block into a zero
  accumulator is that sum over d. The block of positives keeps the distance where the two labels agree and puts −∞
  elsewhere, its row maximum is a fold of `max` from −∞ over the 512 columns; the block of negatives puts +∞
  where they agree, its row minimum a fold of `min` from +∞. The two running columns are updated by `max` and `min`
  with these, entry by entry.
-/
import proofs.«419089_j1769526526580_1_alg».proof.Proof.Gen.KernelIdeal.Skeleton
import proofs.«419089_j1769526526580_1_alg».proof.Proof.Gen.KernelIdeal
import proofs.«419089_j1769526526580_1_alg».proof.Proof.MiningSpec
import proofs.«419089_j1769526526580_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Block

open Idealize.ShloMosaic Idealize.ShloMosaic.TcCoe Idealize.ShloMosaic.ValueIdx
open Cert.KernelIdeal Cert.KernelIdeal.Gen

variable (x0 : Vec Ideal S2048x512 .f32) (x1 : Vec Ideal S512x512 .f32) (x2 : Vec Ideal S2048x1 .f32)
  (x3 : Vec Ideal S1x512 .f32) (x4 : Vec Ideal S2048x1 .i32) (x5 : Vec Ideal S1x512 .i32)

/-- Entry (r, k) of the point's distance block. -/
def bdist (r : Fin 2048) (k : Fin 512) : EReal :=
  Ideal.sqrt (max Cert.Mining.eps ((x2 (ix2 r 0) + x3 (ix2 0 k)) - Cert.Mining.two * ∑ d : Fin 512, x0 (ix2 r d) * x1 (ix2 k d)))

/-- Whether row r and column k of the point carry one label. -/
def bsame (r : Fin 2048) (k : Fin 512) : BitVec 1 := IntOp.cmpi .eq (x4 (ix2 r 0)) (x5 (ix2 0 k))

/-- The constant named as the stand-in for −∞ denotes −∞. -/
theorem neg_big : Named.named (F := Ideal) κ "neg_big" (φ := .f32) 0xF149F2CA#32 = (⊥ : EReal) :=
  IdealRules.named_const.ideal_named_scalar _ _ _ _ rfl

/-- The constant named as the stand-in for +∞ denotes +∞. -/
theorem pos_big : Named.named (F := Ideal) κ "pos_big" (φ := .f32) 0x7149F2CA#32 = (⊤ : EReal) :=
  IdealRules.named_const.ideal_named_scalar _ _ _ _ rfl

theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The product of a row block with a matrix into the zero accumulator, at (r, k): the sum over the shared axis. -/
theorem matmul_at (l : FVec Ideal S2048x512 .f32) (w : FVec Ideal S512x512 .f32) (r : Fin 2048) (k : Fin 512) :
    matmul dot_S2048x512_S512x512_S2048x512_1_0_0_1_n_n (some .fp32) l w (constant S2048x512 .f32 0x00000000#32) (ix2 r k)
      = ∑ d : Fin 512, l (ix2 r d) * w (ix2 d k) := by
  show FloatOps.matmul _ _ _ _ _ _ = _
  rw [Ideal.matmul_constant_zero_apply, ← Equiv.sum_comp (contrEquiv1 dot_S2048x512_S512x512_S2048x512_1_0_0_1_n_n 512 rfl rfl).symm]
  refine Finset.sum_congr rfl fun d _ => ?_
  have hd := contrEquiv1_symm_val dot_S2048x512_S512x512_S2048x512_1_0_0_1_n_n 512 rfl rfl d
  have el : dot_S2048x512_S512x512_S2048x512_1_0_0_1_n_n.lhsIdx (ix2 r k) ((contrEquiv1 dot_S2048x512_S512x512_S2048x512_1_0_0_1_n_n 512 rfl rfl).symm d) = ix2 r d := funext fun a => Fin.ext (by
    match a with
    | ⟨0, _⟩ => exact lhs_0 _ _
    | ⟨1, _⟩ => exact (lhs_1 _ _).trans hd)
  have er : dot_S2048x512_S512x512_S2048x512_1_0_0_1_n_n.rhsIdx (ix2 r k) ((contrEquiv1 dot_S2048x512_S512x512_S2048x512_1_0_0_1_n_n 512 rfl rfl).symm d) = ix2 d k := funext fun a => Fin.ext (by
    match a with
    | ⟨0, _⟩ => exact (rhs_0 _ _).trans hd
    | ⟨1, _⟩ => exact rhs_1 _ _)
  rw [el, er]

/-- The distance block, entry by entry. -/
theorem dist_at (r : Fin 2048) (k : Fin 512) :
    k0_pay5 (F := Ideal) x0 x1 x2 x3 (ix2 r k) = bdist x0 x1 x2 x3 r k := by
  unfold k0_pay5 bdist Cert.Mining.eps Cert.Mining.two
  rw [shapeCast_self x2, shapeCast_self x3, shapeCast_self x1]
  show Ideal.sqrt (max _ ((_ + _) - _ * _)) = _
  rw [Cert.LibColumn.broadcastTo_a1_ab_apply, broadcastTo_1b_ab_apply, matmul_at]
  have hs : (∑ d : Fin 512, x0 (ix2 r d) * transpose S512x512 [1, 0] x1 Cert.KernelIdeal.Gen.transposes_S512x512_p1_0_S512x512 (ix2 d k))
      = ∑ d : Fin 512, x0 (ix2 r d) * x1 (ix2 k d) :=
    Finset.sum_congr rfl fun d _ => congrArg (fun z => x0 (ix2 r d) * z) (transpose_ix2_apply x1 _ d k)
  rw [hs]
  rfl

/-- The label comparison block, entry by entry. -/
theorem same_at (r : Fin 2048) (k : Fin 512) :
    k0_pay6 (F := Ideal) x4 x5 (ix2 r k) = bsame x4 x5 r k := by
  unfold k0_pay6 bsame
  simp only [shapeCast_self]
  show IntOp.cmpi .eq _ _ = _
  rw [Cert.LibColumn.broadcastTo_a1_ab_apply, broadcastTo_1b_ab_apply]

/-- The bit pattern of −∞ denotes −∞, that of +∞ denotes +∞. -/
theorem ofBits_neg_inf : Ideal.ofBits .f32 0xFF800000#32 = (⊥ : EReal) := by simp [Ideal.ofBits, Ideal.ieee]
theorem ofBits_pos_inf : Ideal.ofBits .f32 0x7F800000#32 = (⊤ : EReal) := by simp [Ideal.ofBits, Ideal.ieee]

/-- The positives' entry at (r, k): the distance where the labels agree, −∞ elsewhere. -/
def bpos (r : Fin 2048) (k : Fin 512) : EReal := Scalar.select (bsame x4 x5 r k) (bdist x0 x1 x2 x3 r k) ⊥
/-- The negatives' entry at (r, k): +∞ where the labels agree, the distance elsewhere. -/
def bneg (r : Fin 2048) (k : Fin 512) : EReal := Scalar.select (bsame x4 x5 r k) ⊤ (bdist x0 x1 x2 x3 r k)

/-- The block's row maxima of the positives: at row r the fold of `max` from −∞ over the 512 columns. -/
theorem rowMax_at (r : Fin 2048) :
    k0_pay8 (F := Ideal) x0 x1 x2 x3 x4 x5 (ix2 r 0)
      = (Finset.univ : Finset (Fin 512)).fold max ⊥ (bpos x0 x1 x2 x3 x4 x5 r) := by
  have e : k0_pay8 (F := Ideal) x0 x1 x2 x3 x4 x5
      = shapeCast S2048x1 (multiReduction .maximumf [1] S2048
          (select (k0_pay6 (F := Ideal) x4 x5) (k0_pay5 (F := Ideal) x0 x1 x2 x3)
            (broadcast S2048x512 (Named.named (F := Ideal) κ "neg_big" (φ := .f32) 0xF149F2CA#32)))
          0xFF800000#32 Cert.KernelIdeal.Gen.reduces_S2048x512_S2048 (.inl rfl) rfl) Cert.KernelIdeal.Gen.shapeCasts_S2048_S2048x1 := rfl
  rw [e]
  obtain ⟨src, hsrc⟩ : ∃ src : FVec Ideal S2048x512 .f32, src = select (k0_pay6 (F := Ideal) x4 x5) (k0_pay5 (F := Ideal) x0 x1 x2 x3)
      (broadcast S2048x512 (Named.named (F := Ideal) κ "neg_big" (φ := .f32) 0xF149F2CA#32)) := ⟨_, rfl⟩
  rw [← hsrc]
  refine (Cert.LibColumn.shapeCast_a_a1_apply _ Cert.KernelIdeal.Gen.shapeCasts_S2048_S2048x1 r 0).trans ?_
  refine (multiReduction_maximumf_eq_fold src 0xFF800000#32 Cert.KernelIdeal.Gen.reduces_S2048x512_S2048 (.inl rfl) rfl (ix1 r)).trans ?_
  refine (Shape.Reduces.fold_filter_drop_single Cert.KernelIdeal.Gen.reduces_S2048x512_S2048 _ _ src (ix1 r)).trans ?_
  show (Finset.univ : Finset (Fin 512)).fold max (Ideal.ofBits .f32 0xFF800000#32) _ = _
  rw [ofBits_neg_inf]
  refine congrArg (fun f => (Finset.univ : Finset (Fin 512)).fold max ⊥ f) (funext fun (k : Fin 512) => ?_)
  refine (congrArg src (Cert.LibColumn.lift_axis1 Cert.KernelIdeal.Gen.reduces_S2048x512_S2048 r k)).trans ?_
  rw [hsrc, select_apply, same_at, dist_at, broadcast_apply, neg_big]
  rfl

/-- The negatives block, entry by entry. -/
theorem neg_at (r : Fin 2048) (k : Fin 512) :
    k0_pay7 (F := Ideal) x0 x1 x2 x3 x4 x5 (ix2 r k) = bneg x0 x1 x2 x3 x4 x5 r k := by
  unfold k0_pay7
  show select _ _ _ (ix2 r k) = _
  rw [select_apply, same_at, dist_at, broadcast_apply, pos_big]
  rfl

/-- The running maximum's update, entry by entry. -/
theorem joinMax_at (acc : Vec Ideal S2048x1 .f32) (v : FVec Ideal S2048x1 .f32) (r : Fin 2048) :
    k0_pay1 (F := Ideal) acc v (ix2 r 0) = max (acc (ix2 r 0)) (v (ix2 r 0)) := by
  have e : k0_pay1 (F := Ideal) acc v = maximumf acc v := by
    unfold k0_pay1
    exact shapeCast_self _ _
  rw [e]
  rfl

/-- The running minimum's update, entry by entry: the column met with the block's row minima of the negatives. -/
theorem meetMin_at (w : FVec Ideal S2048x512 .f32) (acc : Vec Ideal S2048x1 .f32) (r : Fin 2048) :
    k0_pay2 (F := Ideal) w acc (ix2 r 0)
      = min (acc (ix2 r 0)) ((Finset.univ : Finset (Fin 512)).fold min ⊤ fun k => w (ix2 r k)) := by
  have e : k0_pay2 (F := Ideal) w acc
      = minimumf acc (shapeCast S2048x1 (multiReduction .minimumf [1] S2048 w 0x7F800000#32 Cert.KernelIdeal.Gen.reduces_S2048x512_S2048 (.inl rfl) rfl)
          Cert.KernelIdeal.Gen.shapeCasts_S2048_S2048x1) := by
    unfold k0_pay2
    exact shapeCast_self _ _
  rw [e]
  show min (acc (ix2 r 0)) _ = _
  refine congrArg (min (acc (ix2 r 0))) ?_
  refine (Cert.LibColumn.shapeCast_a_a1_apply _ Cert.KernelIdeal.Gen.shapeCasts_S2048_S2048x1 r 0).trans ?_
  refine (multiReduction_minimumf_eq_fold w 0x7F800000#32 Cert.KernelIdeal.Gen.reduces_S2048x512_S2048 (.inl rfl) rfl (ix1 r)).trans ?_
  refine (Shape.Reduces.fold_filter_drop_single Cert.KernelIdeal.Gen.reduces_S2048x512_S2048 _ _ w (ix1 r)).trans ?_
  show (Finset.univ : Finset (Fin 512)).fold min (Ideal.ofBits .f32 0x7F800000#32) _ = _
  rw [ofBits_pos_inf]
  refine congrArg (fun f => (Finset.univ : Finset (Fin 512)).fold min ⊤ f) (funext fun (k : Fin 512) => ?_)
  exact congrArg w (Cert.LibColumn.lift_axis1 Cert.KernelIdeal.Gen.reduces_S2048x512_S2048 r k)

/-- The column the running maximum restarts from is −∞ everywhere. -/
theorem startMax_at (r : Fin 2048) : (k0_pay3 (F := Ideal)) (ix2 r 0) = (⊥ : EReal) := by
  unfold k0_pay3
  simp only [shapeCast_self]
  show Named.named (F := Ideal) κ "neg_big" (φ := .f32) 0xF149F2CA#32 = _
  exact neg_big

/-- The column the running minimum restarts from is +∞ everywhere. -/
theorem startMin_at (r : Fin 2048) : (k0_pay4 (F := Ideal)) (ix2 r 0) = (⊤ : EReal) := by
  unfold k0_pay4
  simp only [shapeCast_self]
  show Named.named (F := Ideal) κ "pos_big" (φ := .f32) 0x7149F2CA#32 = _
  exact pos_big

end Cert.KernelIdeal.Block

end
-- ==== Proof.KernelAccum.lean ====
/-
  The two running columns after every grid point.

  The 64 points run row block by row block (4 of them, 2048 rows each) and, inside a row block, over the 16 column
  groups of 512. After the point of row block i and group j, entry r of the first running column is the maximum of
  row 2048 i + r's positive entries over the columns of groups 0 … j, and entry r of the second the minimum of its
  negative entries over the same columns: at j = 0 the columns restart from −∞ and +∞, and each later point joins
  its group's row extremum to what the point before left. At j = 15 that is the whole row, and the point copies both
  columns to its output blocks. Below: a block's entries are the arrays' entries at row 2048 i + r and column
  512 j + k; the three cases' updates; the invariant by induction on the point.
-/
import proofs.«419089_j1769526526580_1_alg».proof.Proof.KernelPieces
import proofs.«419089_j1769526526580_1_alg».proof.Proof.KernelBlock

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Block

variable (m : (ℓ : Loc nD τ sig) → Buf (Elt Ideal) ℓ)

/-! ## The arrays the region finds, and a point's blocks, at their literal types -/

abbrev aX (c : Dev nD) : Vec Ideal S8192x512 .f32 := V m c main_arg0
abbrev aY (c : Dev nD) : Vec Ideal S8192x512 .f32 := V m c main_v0
abbrev aSx (c : Dev nD) : Vec Ideal S8192x1 .f32 := V m c main_v3
abbrev aSy (c : Dev nD) : Vec Ideal S1x8192 .f32 := V m c main_v7
abbrev aTi (c : Dev nD) : Vec Ideal S8192x1 .i32 := V m c main_v8
abbrev aTj (c : Dev nD) : Vec Ideal S1x8192 .i32 := V m c main_v9

abbrev b0 (c : Dev nD) (t : Fin cfg0.N) : Vec Ideal S2048x512 .f32 := iblk m c 0 t
abbrev b1 (c : Dev nD) (t : Fin cfg0.N) : Vec Ideal S512x512 .f32 := iblk m c 1 t
abbrev b2 (c : Dev nD) (t : Fin cfg0.N) : Vec Ideal S2048x1 .f32 := iblk m c 2 t
abbrev b3 (c : Dev nD) (t : Fin cfg0.N) : Vec Ideal S1x512 .f32 := iblk m c 3 t
abbrev b4 (c : Dev nD) (t : Fin cfg0.N) : Vec Ideal S2048x1 .i32 := iblk m c 4 t
abbrev b5 (c : Dev nD) (t : Fin cfg0.N) : Vec Ideal S1x512 .i32 := iblk m c 5 t

/-- The features, the picked centres, the two norm vectors and the labels as plain index functions. -/
def pX (c : Dev nD) : Fin 8192 → Fin 512 → EReal := fun R d => aX m c (ix2 R d)
def pY (c : Dev nD) : Fin 8192 → Fin 512 → EReal := fun C d => aY m c (ix2 C d)
def pSx (c : Dev nD) : Fin 8192 → EReal := fun R => aSx m c (ix2 R 0)
def pSy (c : Dev nD) : Fin 8192 → EReal := fun C => aSy m c (ix2 0 C)
def pTi (c : Dev nD) : Fin 8192 → BitVec 32 := fun R => aTi m c (ix2 R 0)
def pTj (c : Dev nD) : Fin 8192 → BitVec 32 := fun C => aTj m c (ix2 0 C)

/-- Row R's positive and negative entries over all columns. -/
def posRow (c : Dev nD) (R : Fin 8192) : Fin 8192 → EReal :=
  Cert.Mining.posEntry (pX m c) (pY m c) (pSx m c) (pSy m c) (pTi m c) (pTj m c) R
def negRow (c : Dev nD) (R : Fin 8192) : Fin 8192 → EReal :=
  Cert.Mining.negEntry (pX m c) (pY m c) (pSx m c) (pSy m c) (pTi m c) (pTj m c) R

/-- The array row that entry r of point t's row block is. -/
def rowOf (t : Fin cfg0.N) (r : Fin 2048) : Fin 8192 :=
  ⟨2048 * (t.val / 16) + r.val, by have := t.isLt; have hN : cfg0.N = 64 := N_0; have := r.isLt; omega⟩
/-- Point t's column group. -/
def grpOf (t : Fin cfg0.N) : Fin 16 := ⟨t.val % 16, Nat.mod_lt _ (by decide)⟩

/-- Where each window's block sits at point t: row block t / 16, column group t % 16. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16 :=
  (by decide +kernel : ∀ t : Fin grid0.N, _)

theorem b0_at (c : Dev nD) (t : Fin cfg0.N) (r : Fin 2048) (d : Fin 512) :
    b0 m c t (ix2 r d) = aX m c (ix2 (rowOf t r) d) := by
  obtain ⟨h0, h1, -⟩ := idx_facts t
  show iblk m c 0 t (ix2 r d) = _
  unfold iblk
  rw [View.read_apply]
  show V m c main_arg0 _ = V m c main_arg0 _
  congr 1
  funext a
  apply Fin.ext
  match a with
  | ⟨0, _⟩ => show win0_0.index t 0 * 2048 + 1 * r.val = 2048 * (t.val / 16) + r.val; rw [h0]; omega
  | ⟨1, _⟩ => show win0_0.index t 1 * 512 + 1 * d.val = d.val; rw [h1]; omega

theorem b1_at (c : Dev nD) (t : Fin cfg0.N) (k : Fin 512) (d : Fin 512) :
    b1 m c t (ix2 k d) = aY m c (ix2 (Cert.Mining.col (grpOf t) k) d) := by
  obtain ⟨-, -, h0, h1, -⟩ := idx_facts t
  show iblk m c 1 t (ix2 k d) = _
  unfold iblk
  rw [View.read_apply]
  show V m c main_v0 _ = V m c main_v0 _
  congr 1
  funext a
  apply Fin.ext
  match a with
  | ⟨0, _⟩ => show win0_1.index t 0 * 512 + 1 * k.val = 512 * (t.val % 16) + k.val; rw [h0]; omega
  | ⟨1, _⟩ => show win0_1.index t 1 * 512 + 1 * d.val = d.val; rw [h1]; omega

theorem b2_at (c : Dev nD) (t : Fin cfg0.N) (r : Fin 2048) :
    b2 m c t (ix2 r 0) = aSx m c (ix2 (rowOf t r) 0) := by
  obtain ⟨-, -, -, -, h0, h1, -⟩ := idx_facts t
  show iblk m c 2 t (ix2 r 0) = _
  unfold iblk
  rw [View.read_apply]
  show V m c main_v3 _ = V m c main_v3 _
  congr 1
  funext a
  apply Fin.ext
  match a with
  | ⟨0, _⟩ => show win0_2.index t 0 * 2048 + 1 * r.val = 2048 * (t.val / 16) + r.val; rw [h0]; omega
  | ⟨1, _⟩ => show win0_2.index t 1 * 1 + 1 * 0 = 0; rw [h1]

theorem b3_at (c : Dev nD) (t : Fin cfg0.N) (k : Fin 512) :
    b3 m c t (ix2 0 k) = aSy m c (ix2 0 (Cert.Mining.col (grpOf t) k)) := by
  obtain ⟨-, -, -, -, -, -, h0, h1, -⟩ := idx_facts t
  show iblk m c 3 t (ix2 0 k) = _
  unfold iblk
  rw [View.read_apply]
  show V m c main_v7 _ = V m c main_v7 _
  congr 1
  funext a
  apply Fin.ext
  match a with
  | ⟨0, _⟩ => show win0_3.index t 0 * 1 + 1 * 0 = 0; rw [h0]
  | ⟨1, _⟩ => show win0_3.index t 1 * 512 + 1 * k.val = 512 * (t.val % 16) + k.val; rw [h1]; omega

theorem b4_at (c : Dev nD) (t : Fin cfg0.N) (r : Fin 2048) :
    b4 m c t (ix2 r 0) = aTi m c (ix2 (rowOf t r) 0) := by
  obtain ⟨-, -, -, -, -, -, -, -, h0, h1, -⟩ := idx_facts t
  show iblk m c 4 t (ix2 r 0) = _
  unfold iblk
  rw [View.read_apply]
  show V m c main_v8 _ = V m c main_v8 _
  congr 1
  funext a
  apply Fin.ext
  match a with
  | ⟨0, _⟩ => show win0_4.index t 0 * 2048 + 1 * r.val = 2048 * (t.val / 16) + r.val; rw [h0]; omega
  | ⟨1, _⟩ => show win0_4.index t 1 * 1 + 1 * 0 = 0; rw [h1]

theorem b5_at (c : Dev nD) (t : Fin cfg0.N) (k : Fin 512) :
    b5 m c t (ix2 0 k) = aTj m c (ix2 0 (Cert.Mining.col (grpOf t) k)) := by
  obtain ⟨-, -, -, -, -, -, -, -, -, -, h0, h1⟩ := idx_facts t
  show iblk m c 5 t (ix2 0 k) = _
  unfold iblk
  rw [View.read_apply]
  show V m c main_v9 _ = V m c main_v9 _
  congr 1
  funext a
  apply Fin.ext
  match a with
  | ⟨0, _⟩ => show win0_5.index t 0 * 1 + 1 * 0 = 0; rw [h0]
  | ⟨1, _⟩ => show win0_5.index t 1 * 512 + 1 * k.val = 512 * (t.val % 16) + k.val; rw [h1]; omega

/-- A point's positive entry (r, k) is the array's positive entry at its row and column. -/
theorem bpos_eq (c : Dev nD) (t : Fin cfg0.N) (r : Fin 2048) (k : Fin 512) :
    bpos (b0 m c t) (b1 m c t) (b2 m c t) (b3 m c t) (b4 m c t) (b5 m c t) r k = posRow m c (rowOf t r) (Cert.Mining.col (grpOf t) k) := by
  unfold bpos bsame bdist posRow Cert.Mining.posEntry Cert.Mining.same Cert.Mining.dist pX pY pSx pSy pTi pTj
  rw [b2_at, b3_at, b4_at, b5_at]
  simp only [b0_at, b1_at]

theorem bneg_eq (c : Dev nD) (t : Fin cfg0.N) (r : Fin 2048) (k : Fin 512) :
    bneg (b0 m c t) (b1 m c t) (b2 m c t) (b3 m c t) (b4 m c t) (b5 m c t) r k = negRow m c (rowOf t r) (Cert.Mining.col (grpOf t) k) := by
  unfold bneg bsame bdist negRow Cert.Mining.negEntry Cert.Mining.same Cert.Mining.dist pX pY pSx pSy pTi pTj
  rw [b2_at, b3_at, b4_at, b5_at]
  simp only [b0_at, b1_at]

/-- The point's group maximum of row `rowOf t r`'s positives, and group minimum of its negatives. -/
theorem rowMax_eq (c : Dev nD) (t : Fin cfg0.N) (r : Fin 2048) :
    k0_pay8 (F := Ideal) (b0 m c t) (b1 m c t) (b2 m c t) (b3 m c t) (b4 m c t) (b5 m c t) (ix2 r 0) = Cert.Mining.grpMax (posRow m c (rowOf t r)) (grpOf t) := by
  rw [rowMax_at]
  unfold Cert.Mining.grpMax
  exact congrArg (fun f => (Finset.univ : Finset (Fin 512)).fold max ⊥ f) (funext fun k => bpos_eq m c t r k)

theorem rowMin_eq (c : Dev nD) (t : Fin cfg0.N) (r : Fin 2048) :
    ((Finset.univ : Finset (Fin 512)).fold min ⊤ fun k => k0_pay7 (F := Ideal) (b0 m c t) (b1 m c t) (b2 m c t) (b3 m c t) (b4 m c t) (b5 m c t) (ix2 r k))
      = Cert.Mining.grpMin (negRow m c (rowOf t r)) (grpOf t) := by
  unfold Cert.Mining.grpMin
  exact congrArg (fun f => (Finset.univ : Finset (Fin 512)).fold min ⊤ f) (funext fun k => (neg_at _ _ _ _ _ _ r k).trans (bneg_eq m c t r k))

/-! ## The three cases' updates -/

theorem step_first (c : Dev nD) (t : Fin cfg0.N) (h0 : t.val % 16 = 0) (h1 : ¬t.val % 16 = 15) (r : Fin 2048) :
    (outsAt0 m c t.val t.isLt).2.2.1 (ix2 r 0) = max ⊥ (Cert.Mining.grpMax (posRow m c (rowOf t r)) (grpOf t))
    ∧ (outsAt0 m c t.val t.isLt).2.2.2 (ix2 r 0) = min ⊤ (Cert.Mining.grpMin (negRow m c (rowOf t r)) (grpOf t)) := by
  rw [outsAt0_A m c t h0 h1]
  dsimp only
  constructor
  · refine (congrFun (Cert.KernelIdeal.Pieces.maxCol_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t) (iblk m c 4 t) (iblk m c 5 t)) (ix2 r 0)).trans ?_
    refine (joinMax_at _ _ r).trans ?_
    rw [startMax_at]
    exact congrArg (max ⊥) (rowMax_eq m c t r)
  · refine (congrFun (Cert.KernelIdeal.Pieces.minCol_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t) (iblk m c 4 t) (iblk m c 5 t)) (ix2 r 0)).trans ?_
    refine (meetMin_at _ _ r).trans ?_
    rw [startMin_at]
    exact congrArg (min ⊤) (rowMin_eq m c t r)

theorem step_mid (c : Dev nD) (t : Fin cfg0.N) (h0 : ¬t.val % 16 = 0) (h1 : ¬t.val % 16 = 15) (r : Fin 2048) :
    (outsAt0 m c t.val t.isLt).2.2.1 (ix2 r 0)
      = max ((outsAt0 m c (t.val - 1) (Nat.lt_of_le_of_lt (Nat.sub_le _ _) t.isLt)).2.2.1 (ix2 r 0)) (Cert.Mining.grpMax (posRow m c (rowOf t r)) (grpOf t))
    ∧ (outsAt0 m c t.val t.isLt).2.2.2 (ix2 r 0)
      = min ((outsAt0 m c (t.val - 1) (Nat.lt_of_le_of_lt (Nat.sub_le _ _) t.isLt)).2.2.2 (ix2 r 0)) (Cert.Mining.grpMin (negRow m c (rowOf t r)) (grpOf t)) := by
  rw [outsAt0_B m c t h0 h1]
  dsimp only
  constructor
  · refine (congrFun (Cert.KernelIdeal.Pieces.maxCol_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans ?_
    refine (joinMax_at _ _ r).trans ?_
    exact congrArg (max _) (rowMax_eq m c t r)
  · refine (congrFun (Cert.KernelIdeal.Pieces.minCol_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans ?_
    refine (meetMin_at _ _ r).trans ?_
    exact congrArg (min _) (rowMin_eq m c t r)

theorem step_last (c : Dev nD) (t : Fin cfg0.N) (h0 : ¬t.val % 16 = 0) (h1 : t.val % 16 = 15) (r : Fin 2048) :
    ((outsAt0 m c t.val t.isLt).2.2.1 (ix2 r 0)
      = max ((outsAt0 m c (t.val - 1) (Nat.lt_of_le_of_lt (Nat.sub_le _ _) t.isLt)).2.2.1 (ix2 r 0)) (Cert.Mining.grpMax (posRow m c (rowOf t r)) (grpOf t))
    ∧ (outsAt0 m c t.val t.isLt).2.2.2 (ix2 r 0)
      = min ((outsAt0 m c (t.val - 1) (Nat.lt_of_le_of_lt (Nat.sub_le _ _) t.isLt)).2.2.2 (ix2 r 0)) (Cert.Mining.grpMin (negRow m c (rowOf t r)) (grpOf t)))
    ∧ (outsAt0 m c t.val t.isLt).1 (ix2 r 0) = (outsAt0 m c t.val t.isLt).2.2.1 (ix2 r 0)
    ∧ (outsAt0 m c t.val t.isLt).2.1 (ix2 r 0) = (outsAt0 m c t.val t.isLt).2.2.2 (ix2 r 0) := by
  rw [outsAt0_C m c t h0 h1]
  dsimp only
  have e0 := congrFun (Cert.KernelIdeal.Pieces.maxCol_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)
  have e1 := congrFun (Cert.KernelIdeal.Pieces.minCol_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)
  have o0 := congrFun (Cert.KernelIdeal.Pieces.outMax_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)
  have o1 := congrFun (Cert.KernelIdeal.Pieces.outMin_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)
  refine ⟨⟨?_, ?_⟩, o0.trans e0.symm, o1.trans e1.symm⟩
  · refine e0.trans ?_
    refine (joinMax_at _ _ r).trans ?_
    exact congrArg (max _) (rowMax_eq m c t r)
  · refine e1.trans ?_
    refine (meetMin_at _ _ r).trans ?_
    exact congrArg (min _) (rowMin_eq m c t r)

end Cert.KernelIdeal.Accum

end
-- ==== Proof.KernelArrays.lean ====
/-
  The two result arrays after the region.

  By induction over the 64 points the running columns hold, after the point of row block i and column group j, the
  maximum of each row's positives and the minimum of its negatives over groups 0 … j (the law of Proof/MiningSpec.lean,
  one group at a time). At j = 15 that is the whole row, the point writes both columns back as block i of the two
  [8192, 1] results, and the four write-backs cover them: the first result is every row's hardest positive, the
  second every row's hardest negative.
-/
import proofs.«419089_j1769526526580_1_alg».proof.Proof.KernelAccum
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Accum

variable (m : (ℓ : Loc nD τ sig) → Buf (Elt Ideal) ℓ)

/-- After point n the running columns hold the extrema over the column groups met so far in n's row block. -/
theorem accum (c : Dev nD) : ∀ (n : ℕ) (h : n < cfg0.N) (r : Fin 2048),
    (outsAt0 m c n h).2.2.1 (ix2 r 0) = Cert.Mining.runMax (posRow m c (rowOf ⟨n, h⟩ r)) (n % 16 + 1)
    ∧ (outsAt0 m c n h).2.2.2 (ix2 r 0) = Cert.Mining.runMin (negRow m c (rowOf ⟨n, h⟩ r)) (n % 16 + 1)
  | n, h, r => by
    have hN : cfg0.N = 64 := N_0
    have sM : Cert.Mining.runMax (posRow m c (rowOf ⟨n, h⟩ r)) (n % 16 + 1)
        = max (Cert.Mining.runMax (posRow m c (rowOf ⟨n, h⟩ r)) (n % 16)) (Cert.Mining.grpMax (posRow m c (rowOf ⟨n, h⟩ r)) (grpOf ⟨n, h⟩)) :=
      Cert.Mining.runMax_succ (posRow m c (rowOf ⟨n, h⟩ r)) (grpOf ⟨n, h⟩)
    have sm : Cert.Mining.runMin (negRow m c (rowOf ⟨n, h⟩ r)) (n % 16 + 1)
        = min (Cert.Mining.runMin (negRow m c (rowOf ⟨n, h⟩ r)) (n % 16)) (Cert.Mining.grpMin (negRow m c (rowOf ⟨n, h⟩ r)) (grpOf ⟨n, h⟩)) :=
      Cert.Mining.runMin_succ (negRow m c (rowOf ⟨n, h⟩ r)) (grpOf ⟨n, h⟩)
    by_cases h0 : n % 16 = 0
    · have h1 : ¬n % 16 = 15 := by omega
      obtain ⟨e0, e1⟩ := step_first m c ⟨n, h⟩ h0 h1 r
      refine ⟨e0.trans ?_, e1.trans ?_⟩
      · rw [sM, h0, Cert.Mining.runMax_zero]
      · rw [sm, h0, Cert.Mining.runMin_zero]
    · have hpos : 0 < n := Nat.pos_of_ne_zero (fun hz => h0 (by rw [hz]))
      have hlt : n - 1 < cfg0.N := by omega
      obtain ⟨i0, i1⟩ := accum c (n - 1) hlt r
      have hrow : rowOf ⟨n - 1, hlt⟩ r = rowOf ⟨n, h⟩ r :=
        Fin.ext (by show 2048 * ((n - 1) / 16) + r.val = 2048 * (n / 16) + r.val; omega)
      have hcnt : (n - 1) % 16 + 1 = n % 16 := by omega
      rw [hrow, hcnt] at i0 i1
      by_cases h1 : n % 16 = 15
      · obtain ⟨⟨e0, e1⟩, -, -⟩ := step_last m c ⟨n, h⟩ h0 h1 r
        refine ⟨e0.trans ?_, e1.trans ?_⟩
        · rw [sM]; exact congrArg (fun a => max a _) i0
        · rw [sm]; exact congrArg (fun a => min a _) i1
      · obtain ⟨e0, e1⟩ := step_mid m c ⟨n, h⟩ h0 h1 r
        refine ⟨e0.trans ?_, e1.trans ?_⟩
        · rw [sM]; exact congrArg (fun a => max a _) i0
        · rw [sm]; exact congrArg (fun a => min a _) i1
termination_by n => n
decreasing_by omega

/-- Every row's hardest positive, as the [8192, 1] array the region writes; and every row's hardest negative. -/
def hardPosCol (c : Dev nD) : Vec Ideal S8192x1 .f32 := fun y =>
  Cert.Mining.hardPos (pX m c) (pY m c) (pSx m c) (pSy m c) (pTi m c) (pTj m c) ⟨(y 0).val, idx2_lt0 y⟩
def hardNegCol (c : Dev nD) : Vec Ideal S8192x1 .f32 := fun y =>
  Cert.Mining.hardNeg (pX m c) (pY m c) (pSx m c) (pSy m c) (pTi m c) (pTj m c) ⟨(y 0).val, idx2_lt0 y⟩

/-- Both result windows sit at row block t / 16. -/
theorem out_idx : ∀ t : Fin cfg0.N,
    win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

/-- At a last column group the two output blocks are the completed row extrema. -/
theorem last_out (c : Dev nD) (t : Fin cfg0.N) (h15 : t.val % 16 = 15) (r : Fin 2048) :
    (outsAt0 m c t.val t.isLt).1 (ix2 r 0)
      = Cert.Mining.hardPos (pX m c) (pY m c) (pSx m c) (pSy m c) (pTi m c) (pTj m c) (rowOf t r)
    ∧ (outsAt0 m c t.val t.isLt).2.1 (ix2 r 0)
      = Cert.Mining.hardNeg (pX m c) (pY m c) (pSx m c) (pSy m c) (pTi m c) (pTj m c) (rowOf t r) := by
  have h0 : ¬t.val % 16 = 0 := by omega
  obtain ⟨-, o0, o1⟩ := step_last m c t h0 h15 r
  obtain ⟨a0, a1⟩ := accum m c t.val t.isLt r
  have hc : t.val % 16 + 1 = 16 := by omega
  rw [hc, Cert.Mining.runMax_all] at a0
  rw [hc, Cert.Mining.runMin_all] at a1
  exact ⟨o0.trans a0, o1.trans a1⟩

/-- What a writing point writes back of the first result is its block of the hardest-positive column. -/
theorem flushed6 (c : Dev nD) (t : Fin cfg0.N) (hf : (cfg0.win 6).flush t = true) :
    (dats m 0 c).flushed 6 t = ((cfg0.win 6).blk t).view.read (Elt Ideal) (hardPosCol m c) := by
  have h15 : t.val % 16 = 15 := (flush0_6 t).mp hf
  obtain ⟨e0, e1, -⟩ := out_idx t
  show (cfg0.win 6).cut (grid0.coords t) ((dats m 0 c).after 6 t) = _
  rw [after0_6]
  funext y
  obtain ⟨r, u, rfl⟩ : ∃ (r : Fin 2048) (u : Fin 1), y = ix2 r u := ⟨y 0, y 1, eq_ix2 y⟩
  obtain rfl : u = 0 := Fin.ext (by omega)
  show (outsAt0 m c t.val t.isLt).1 (ix2 r 0) = hardPosCol m c (((cfg0.win 6).blk t).view.emb (ix2 r 0))
  rw [(last_out m c t h15 r).1]
  unfold hardPosCol
  refine congrArg _ (Fin.ext ?_)
  show 2048 * (t.val / 16) + r.val = win0_6.index t 0 * 2048 + 1 * r.val
  rw [e0]; omega

theorem flushed7 (c : Dev nD) (t : Fin cfg0.N) (hf : (cfg0.win 7).flush t = true) :
    (dats m 0 c).flushed 7 t = ((cfg0.win 7).blk t).view.read (Elt Ideal) (hardNegCol m c) := by
  have h15 : t.val % 16 = 15 := (flush0_7 t).mp hf
  obtain ⟨-, -, e0, e1⟩ := out_idx t
  show (cfg0.win 7).cut (grid0.coords t) ((dats m 0 c).after 7 t) = _
  rw [after0_7]
  funext y
  obtain ⟨r, u, rfl⟩ : ∃ (r : Fin 2048) (u : Fin 1), y = ix2 r u := ⟨y 0, y 1, eq_ix2 y⟩
  obtain rfl : u = 0 := Fin.ext (by omega)
  show (outsAt0 m c t.val t.isLt).2.1 (ix2 r 0) = hardNegCol m c (((cfg0.win 7).blk t).view.emb (ix2 r 0))
  rw [(last_out m c t h15 r).2]
  unfold hardNegCol
  refine congrArg _ (Fin.ext ?_)
  show 2048 * (t.val / 16) + r.val = win0_7.index t 0 * 2048 + 1 * r.val
  rw [e0]; omega

/-- An index of a result is in point t's block iff each coordinate is in the block's range on its axis. -/
theorem mem_blk6 (t : Fin cfg0.N) (i : S8192x1.Idx) :
    i ∈ ((cfg0.win 6).blk t).view.set ↔ ∀ a : Fin 2, win0_6.index t a * S2048x1.size a ≤ (i a).val ∧ (i a).val < win0_6.index t a * S2048x1.size a + S2048x1.size a := by
  show i ∈ ((View.whole main_v10_0).slice (win0_6.rect t)).set ↔ _
  rw [View.set_slice_whole, Rect.mem_set_unit]
  exact Iff.rfl

theorem mem_blk7 (t : Fin cfg0.N) (i : S8192x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v10_1).slice (win0_7.rect t)).set ↔ _
  rw [View.set_slice_whole, Rect.mem_set_unit]
  exact Iff.rfl

/-- The writing point of the row block that holds row i: the last column group of block i / 2048. -/
def writer (i : S8192x1.Idx) : Fin cfg0.N :=
  ⟨16 * ((i 0).val / 2048) + 15, by have h := idx2_lt0 i; have hN : cfg0.N = 64 := N_0; omega⟩

theorem cover6 (i : S8192x1.Idx) : ∃ t : Fin cfg0.N, (cfg0.win 6).flush t = true ∧ i ∈ ((cfg0.win 6).blk t).view.set := by
  have hi0 : (i 0).val < 8192 := idx2_lt0 i
  have hi1 : (i 1).val < 1 := idx2_lt1 i
  refine ⟨writer i, (flush0_6 _).mpr (by show (16 * ((i 0).val / 2048) + 15) % 16 = 15; omega), ?_⟩
  obtain ⟨e0, e1, -⟩ := out_idx (writer i)
  have hw : (writer i).val = 16 * ((i 0).val / 2048) + 15 := rfl
  rw [mem_blk6]
  intro a
  match a with
  | ⟨0, _⟩ => show win0_6.index (writer i) 0 * 2048 ≤ (i 0).val ∧ (i 0).val < win0_6.index (writer i) 0 * 2048 + 2048; rw [e0, hw]; omega
  | ⟨1, _⟩ => show win0_6.index (writer i) 1 * 1 ≤ (i 1).val ∧ (i 1).val < win0_6.index (writer i) 1 * 1 + 1; rw [e1]; omega

theorem cover7 (i : S8192x1.Idx) : ∃ t : Fin cfg0.N, (cfg0.win 7).flush t = true ∧ i ∈ ((cfg0.win 7).blk t).view.set := by
  have hi0 : (i 0).val < 8192 := idx2_lt0 i
  have hi1 : (i 1).val < 1 := idx2_lt1 i
  refine ⟨writer i, (flush0_7 _).mpr (by show (16 * ((i 0).val / 2048) + 15) % 16 = 15; omega), ?_⟩
  obtain ⟨-, -, e0, e1⟩ := out_idx (writer i)
  have hw : (writer i).val = 16 * ((i 0).val / 2048) + 15 := rfl
  rw [mem_blk7]
  intro a
  match a with
  | ⟨0, _⟩ => show win0_7.index (writer i) 0 * 2048 ≤ (i 0).val ∧ (i 0).val < win0_7.index (writer i) 0 * 2048 + 2048; rw [e0, hw]; omega
  | ⟨1, _⟩ => show win0_7.index (writer i) 1 * 1 ≤ (i 1).val ∧ (i 1).val < win0_7.index (writer i) 1 * 1 + 1; rw [e1]; omega

/-- The first result after the region: every row's hardest positive. The second: every row's hardest negative. -/
theorem final6 (c : Dev nD) : (dats m 0 c).arrAt 6 cfg0.N = hardPosCol m c :=
  (dats m 0 c).arrAt_eq_of_cover 6 (hardPosCol m c) (fun t hf => flushed6 m c t hf) (cover6)

theorem final7 (c : Dev nD) : (dats m 0 c).arrAt 7 cfg0.N = hardNegCol m c :=
  (dats m 0 c).arrAt_eq_of_cover 7 (hardNegCol m c) (fun t hf => flushed7 m c t hf) (cover7)

end Cert.KernelIdeal.Arrays

end
-- ==== Proof.MiningGoal.lean ====
/-
  What both programs return, as functions of the three inputs.

  From the feature rows `X`, the centre row `Y` picked for each sample and the labels `t`, every row's hardest
  positive and hardest negative (Proof/MiningSpec.lean) with the squared norms the programs sum on the host,
  `0 + Σ_d A R d · A R d`; then the two means over the 8192 rows: the margin loss `max (ap − an + 0.2) 0` and the
  share of rows whose hardest negative is farther than the hardest positive. The two means are spelt with the host's
  own operations, so that each program's closing lines are this text applied to its own two vectors.
-/
import proofs.«419089_j1769526526580_1_alg».proof.Proof.MiningSpec
import Idealize.ShloMosaic.PureOps

noncomputable section

namespace Cert.Mining

open Idealize.ShloMosaic Idealize.ShloMosaic.ValueIdx

/-- The rows of a [8192, 512] array. -/
def rows (A : (⟨2, ![8192, 512]⟩ : Shape).Idx → EReal) : Fin 8192 → Fin 512 → EReal := fun R d => A (ix2 R d)

/-- The entries of a [8192] label vector. -/
def labels (t : (⟨1, ![8192]⟩ : Shape).Idx → BitVec 32) : Fin 8192 → BitVec 32 := fun R => t (ix1 R)

/-- A row's squared norm as the host sums it: the zero word's value plus the sum of the squares. -/
def sqn (A : Fin 8192 → Fin 512 → EReal) (R : Fin 8192) : EReal :=
  Ideal.ofBits .f32 0x00000000#32 + ∑ d : Fin 512, A R d * A R d

/-- Every row's hardest positive, from features `X`, picked centres `Y` and labels `t`. -/
def apVec (X Y : (⟨2, ![8192, 512]⟩ : Shape).Idx → EReal) (t : (⟨1, ![8192]⟩ : Shape).Idx → BitVec 32) :
    (⟨1, ![8192]⟩ : Shape).Idx → EReal :=
  fun i => hardPos (rows X) (rows Y) (sqn (rows X)) (sqn (rows Y)) (labels t) (labels t) (i 0)

/-- Every row's hardest negative. -/
def anVec (X Y : (⟨2, ![8192, 512]⟩ : Shape).Idx → EReal) (t : (⟨1, ![8192]⟩ : Shape).Idx → BitVec 32) :
    (⟨1, ![8192]⟩ : Shape).Idx → EReal :=
  fun i => hardNeg (rows X) (rows Y) (sqn (rows X)) (sqn (rows Y)) (labels t) (labels t) (i 0)

/-- The mean over the rows of `max (ap − an + 0.2) 0`, in the host's operations. -/
def loss (hb : (⟨0, ![]⟩ : Shape).BroadcastsInDim ⟨1, ![8192]⟩ (![] : Fin 0 → Fin 1))
    (hr : (⟨1, ![8192]⟩ : Shape).ReducesTo [0] ⟨0, ![]⟩) (h0 : 0 < (⟨0, ![]⟩ : Shape).numel)
    (ap an : FVec Ideal ⟨1, ![8192]⟩ .f32) : FVec Ideal ⟨0, ![]⟩ .f32 :=
  Host.divf
    (Host.reduceAdd
      (maximumf (addf (subf ap an) (broadcastInDim ⟨1, ![8192]⟩ ![] hb (constant (F := Ideal) ⟨0, ![]⟩ .f32 0x3E4CCCCD#32)))
        (broadcastInDim ⟨1, ![8192]⟩ ![] hb (constant (F := Ideal) ⟨0, ![]⟩ .f32 0x00000000#32)))
      (constant (F := Ideal) ⟨0, ![]⟩ .f32 0x00000000#32) hr h0)
    (constant (F := Ideal) ⟨0, ![]⟩ .f32 0x46000000#32)

/-- The share of rows with `an > ap`, in the host's operations. -/
def prec (hr : (⟨1, ![8192]⟩ : Shape).ReducesTo [0] ⟨0, ![]⟩) (h0 : 0 < (⟨0, ![]⟩ : Shape).numel)
    (ap an : FVec Ideal ⟨1, ![8192]⟩ .f32) : FVec Ideal ⟨0, ![]⟩ .f32 :=
  Host.divf
    (Host.reduceAdd (uitofp (F := Ideal) .f32 (cmpf .ogt an ap))
      (constant (F := Ideal) ⟨0, ![]⟩ .f32 0x00000000#32) hr h0)
    (constant (F := Ideal) ⟨0, ![]⟩ .f32 0x46000000#32)

end Cert.Mining

end
-- ==== Proof.KernelEntry.lean ====
/-
  What the kernel program computes on the host, around its one region.

  Before the region: each sample's label picks a centre row (a negative label first wraps around by 55, then
  the row index is tested against `[0, 54]` and a row out of range is replaced by a fill value); the squared
  norms of the feature rows and of the picked rows are summed row by row, `0 + Σ_d A R d · A R d`; the norms
  and the labels are laid out as a column [8192, 1] and as a row [1, 8192]. A reshape between [8192],
  [8192, 1] and [1, 8192] keeps the row-major position, so entry `R` of the vector is entry `(R, 0)` of the
  column and entry `(0, R)` of the row. Under the range `0 ≤ label < 55` no label wraps and every index passes
  the test, so the region finds exactly the picked rows.

  After the region: the two [8192, 1] results are flattened to [8192] (entry `i` is entry `(i, 0)`) and the two
  means are taken; those closing lines are the specification's own text applied to the two result columns.
-/
import proofs.«419089_j1769526526580_1_alg».proof.Defs
import proofs.«419089_j1769526526580_1_alg».proof.Proof.Gen.KernelIdeal.Frame
import proofs.«419089_j1769526526580_1_alg».proof.Proof.Gen.Pre_finite_inputs
import proofs.«419089_j1769526526580_1_alg».proof.Proof.MiningGoal
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Entry

open Idealize.ShloMosaic Idealize.ShloMosaic.TcCoe Idealize.ShloMosaic.ValueIdx
open Cert.KernelIdeal Cert.KernelIdeal.Gen

variable (m : (ℓ : Loc nD τ sig) → Buf (Elt Ideal) ℓ)

/-! ## The contents the region finds, split at the end of the take -/

/-- The host lines before the region are the take's lines, then the norms and the layouts: the contents the
    region finds are the second stretch's contents from the first stretch's. -/
theorem V0_split (c : Dev nD) :
    V0 m c = StableHlo.after hostOps0_1 (StableHlo.after hostOps0 (fun b => m (c, b))) := by
  dsimp only [V0]
  rw [List.flatten_cons, List.flatten_cons, List.flatten_nil, List.append_nil, StableHlo.after_append]

/-- The second stretch does not touch the picked rows. -/
theorem stretch_v0 (W : Valuation τ sig (Elt Ideal)) :
    StableHlo.after (hostOps0_1 (F := Ideal)) W (Proc.devRef .tc main_v0) = W (Proc.devRef .tc main_v0) := by
  after_results

/-- The second stretch leaves, as the row of norms, the row sums of the squares of whatever the first stretch
    left as picked rows. -/
theorem stretch_v7 (W : Valuation τ sig (Elt Ideal)) :
    (StableHlo.after (hostOps0_1 (F := Ideal)) W (Proc.devRef .tc main_v7) : S1x8192.Idx → EReal)
      = shapeCast S1x8192 (broadcastInDim S8192x1 ![0] bcast_S8192_S8192x1_0
          (Host.reduceAdd (mulf (W (Proc.devRef .tc main_v0) : FVec Ideal S8192x512 .f32) (W (Proc.devRef .tc main_v0)))
            (constant (F := Ideal) S_ .f32 0x00000000#32) reducesTo_S8192x512_S8192_d1 h_S_)) shapeCasts_S8192x1_S1x8192 := by
  after_results
  rfl

/-! ## Columns, rows and row sums read at an index -/

/-- A vector laid out as a column reads entry `R` at `(R, 0)`. -/
theorem bcol_apply {α : Type} (v : S8192.Idx → α) (R : Fin 8192) :
    broadcastInDim S8192x1 ![0] bcast_S8192_S8192x1_0 v (ix2 R 0) = v (ix1 R) :=
  broadcastInDim_apply _ _ _ _ (ix1 R) (fun a => match a with | ⟨0, _⟩ => rfl)

/-- Summing out the second axis of a [8192, 512] array keeps the first. -/
theorem red512 : S8192x512.Reduces [1] S8192 := by decide

/-- The host's row sum of the squares, from the zero word, is the squared norm of the row. -/
theorem rowsq_apply (A : FVec Ideal S8192x512 .f32) (R : Fin 8192) :
    Host.reduceAdd (mulf A A) (constant (F := Ideal) S_ .f32 0x00000000#32) reducesTo_S8192x512_S8192_d1 h_S_ (ix1 R)
      = Cert.Mining.sqn (Cert.Mining.rows A) R := by
  rw [hostReduceAdd_apply, Ideal.hostReduceAdd_single _ red512]
  unfold Cert.Mining.sqn Cert.Mining.rows
  have hl : ∀ k : Fin 512, red512.lift (ix1 R) k = ix2 R k := fun k => by
    funext a; match a with | ⟨0, _⟩ => rfl | ⟨1, _⟩ => rfl
  show Ideal.ofBits .f32 0#32 + ∑ k : Fin 512, A (red512.lift (ix1 R) k) * A (red512.lift (ix1 R) k) = _
  simp only [hl]

/-! ## The norms and the labels as the region finds them -/

/-- The column of labels: entry `(R, 0)` is label `R`. -/
theorem entry_ti (c : Dev nD) (R : Fin 8192) :
    V m c main_v8 (ix2 R 0) = m ((c.tc : Thread nD τ).loc main_arg1) (ix1 R) := by
  have e : (V m c main_v8 : S8192x1.Idx → BitVec 32)
      = shapeCast S8192x1 (m ((c : Thread nD τ).loc main_arg1)) shapeCasts_S8192_S8192x1 := by
    dsimp only [Gen.V, Gen.V0]
    simp only [Gen.hostOps0, Gen.hostOps0_1, List.flatten_cons, List.flatten_nil, List.append_nil, List.cons_append, List.nil_append]
    after_results
    rfl
  rw [e]
  refine shapeCast_apply _ _ _ (ix1 R) ?_
  rw [Shape.rowMajor_val_one, Shape.rowMajor_val_two]
  show R.val = R.val * 1 + 0
  omega

/-- The row of labels: entry `(0, C)` is label `C`. -/
theorem entry_tj (c : Dev nD) (C : Fin 8192) :
    V m c main_v9 (ix2 0 C) = m ((c.tc : Thread nD τ).loc main_arg1) (ix1 C) := by
  have e : (V m c main_v9 : S1x8192.Idx → BitVec 32)
      = shapeCast S1x8192 (m ((c : Thread nD τ).loc main_arg1)) shapeCasts_S8192_S1x8192 := by
    dsimp only [Gen.V, Gen.V0]
    simp only [Gen.hostOps0, Gen.hostOps0_1, List.flatten_cons, List.flatten_nil, List.append_nil, List.cons_append, List.nil_append]
    after_results
    rfl
  rw [e]
  refine shapeCast_apply _ _ _ (ix1 C) ?_
  rw [Shape.rowMajor_val_one, Shape.rowMajor_val_two]
  show C.val = 0 * 8192 + C.val
  omega

/-- The column of the feature rows' squared norms. -/
theorem entry_sx (c : Dev nD) (R : Fin 8192) :
    V m c main_v3 (ix2 R 0) = Cert.Mining.sqn (Cert.Mining.rows (m ((c.tc : Thread nD τ).loc main_arg0))) R := by
  have e : (V m c main_v3 : S8192x1.Idx → EReal)
      = broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x512_S8192_d1 h_S_) := by
    dsimp only [Gen.V, Gen.V0]
    simp only [Gen.hostOps0, Gen.hostOps0_1, List.flatten_cons, List.flatten_nil, List.append_nil, List.cons_append, List.nil_append]
    after_results
  rw [e, bcol_apply, rowsq_apply]

/-- The row of the picked rows' squared norms: the column of row sums, re-laid as a row. -/
theorem entry_sy (c : Dev nD) (C : Fin 8192) :
    V m c main_v7 (ix2 0 C) = Cert.Mining.sqn (Cert.Mining.rows (V m c main_v0)) C := by
  show V0 m c (Proc.devRef .tc main_v7) (ix2 0 C) = Cert.Mining.sqn (Cert.Mining.rows (V0 m c (Proc.devRef .tc main_v0))) C
  rw [V0_split, stretch_v7, stretch_v0]
  refine (shapeCast_apply _ _ _ (ix2 C 0) ?_).trans ?_
  · rw [Shape.rowMajor_val_two, Shape.rowMajor_val_two]
    show C.val * 1 + 0 = 0 * 8192 + C.val
    omega
  · rw [bcol_apply, rowsq_apply]

/-! ## The lines after the region -/

/-- A [8192, 1] column flattened to [8192] reads entry `i` at `(i, 0)`. -/
theorem flat_col {α : Type} (A : S8192x1.Idx → α) :
    shapeCast S8192 A shapeCasts_S8192x1_S8192 = fun i => A (ix2 (i 0) 0) := by
  funext i
  refine shapeCast_apply _ _ _ (ix2 (i 0) 0) ?_
  rw [Shape.rowMajor_val_one, Shape.rowMajor_val_two]
  show (i 0).val * 1 + 0 = (i 0).val
  omega

/-- The closing lines leave, as the first result, the margin loss of the two flattened result columns. -/
theorem tail_v19 (W : Valuation τ sig (Elt Ideal)) :
    (StableHlo.after (hostOps1 (F := Ideal)) W (Proc.devRef .tc main_v19) : S_.Idx → EReal)
      = Cert.Mining.loss bcast_S_S8192 reducesTo_S8192_S_d0 h_S_
          (shapeCast S8192 (W (Proc.devRef .tc main_v10_0) : S8192x1.Idx → EReal) shapeCasts_S8192x1_S8192)
          (shapeCast S8192 (W (Proc.devRef .tc main_v10_1) : S8192x1.Idx → EReal) shapeCasts_S8192x1_S8192) := by
  after_results
  rfl

/-- And, as the second result, the share of rows whose second entry exceeds the first. -/
theorem tail_v23 (W : Valuation τ sig (Elt Ideal)) :
    (StableHlo.after (hostOps1 (F := Ideal)) W (Proc.devRef .tc main_v23) : S_.Idx → EReal)
      = Cert.Mining.prec reducesTo_S8192_S_d0 h_S_
          (shapeCast S8192 (W (Proc.devRef .tc main_v10_0) : S8192x1.Idx → EReal) shapeCasts_S8192x1_S8192)
          (shapeCast S8192 (W (Proc.devRef .tc main_v10_1) : S8192x1.Idx → EReal) shapeCasts_S8192x1_S8192) := by
  after_results
  rfl

/-- The first result of the whole program: the margin loss of the region's two result columns. -/
theorem tail_loss (c : Dev nD) :
    Pipeline.afterTail₀ cfgs (dats m) 0 (V0 m) [hostOps1] c main_v19
      = Cert.Mining.loss bcast_S_S8192 reducesTo_S8192_S_d0 h_S_
          (fun i => (dats m 0 c).arrAt 6 cfg0.N (ix2 (i 0) 0)) (fun i => (dats m 0 c).arrAt 7 cfg0.N (ix2 (i 0) 0)) := by
  unfold Pipeline.afterTail₀
  show StableHlo.after hostOps1 _ (Proc.devRef .tc main_v19) = _
  rw [tail_v19, flat_col, flat_col]
  have e6 := Pipeline.withArrays_arr spec0 launch0.win.arr_inj c (V0 m c) (fun w => (dats m 0 c).arrAt w cfg0.N) 6
  have e7 := Pipeline.withArrays_arr spec0 launch0.win.arr_inj c (V0 m c) (fun w => (dats m 0 c).arrAt w cfg0.N) 7
  exact congrArg₂ (Cert.Mining.loss bcast_S_S8192 reducesTo_S8192_S_d0 h_S_)
    (funext fun i => congrFun e6 (ix2 (i 0) 0)) (funext fun i => congrFun e7 (ix2 (i 0) 0))

/-- The second result of the whole program. -/
theorem tail_prec (c : Dev nD) :
    Pipeline.afterTail₀ cfgs (dats m) 0 (V0 m) [hostOps1] c main_v23
      = Cert.Mining.prec reducesTo_S8192_S_d0 h_S_
          (fun i => (dats m 0 c).arrAt 6 cfg0.N (ix2 (i 0) 0)) (fun i => (dats m 0 c).arrAt 7 cfg0.N (ix2 (i 0) 0)) := by
  unfold Pipeline.afterTail₀
  show StableHlo.after hostOps1 _ (Proc.devRef .tc main_v23) = _
  rw [tail_v23, flat_col, flat_col]
  have e6 := Pipeline.withArrays_arr spec0 launch0.win.arr_inj c (V0 m c) (fun w => (dats m 0 c).arrAt w cfg0.N) 6
  have e7 := Pipeline.withArrays_arr spec0 launch0.win.arr_inj c (V0 m c) (fun w => (dats m 0 c).arrAt w cfg0.N) 7
  exact congrArg₂ (Cert.Mining.prec reducesTo_S8192_S_d0 h_S_)
    (funext fun i => congrFun e6 (ix2 (i 0) 0)) (funext fun i => congrFun e7 (ix2 (i 0) 0))

/-! ## The label range -/

/-- Every label is in `[0, 55)`, read signed. -/
def InRange : Prop := ∀ (c : Dev nD) (R : Fin 8192),
  IntOp.cmpi .sge (m ((c.tc : Thread nD τ).loc main_arg1) (ix1 R)) 0#32 = 1#1
    ∧ IntOp.cmpi .slt (m ((c.tc : Thread nD τ).loc main_arg1) (ix1 R)) 55#32 = 1#1

instance : Subsingleton S_.Idx := ⟨fun a b => funext fun d => d.elim0⟩

/-- The precondition's last conjunct is the conjunction, over all samples, of `0 ≤ label` and `label < 55`:
    a conjunction that is one has every term one. -/
theorem inRange_of_pre (h : Cert.Pre_KernelIdeal (hPre_finite_inputs := Cert.Pre_finite_inputs.Gen.facts) m) : InRange m := by
  intro c R
  have e := congrFun (h c) ix0
  dsimp only [Cert.Pre_finite_inputs.fn] at e
  obtain ⟨-, e14⟩ := IntOp.andi_eq_one.1 e
  have e13 := Host.reduce_andi_all _ _ _ _ _ e14 (ix1 R)
  exact IntOp.andi_eq_one.1 e13

end Cert.KernelIdeal.Entry

end
-- ==== Proof.KernelPicked.lean ====
/-
  The rows the labels pick, as the kernel program's region finds them.

  Each sample's label selects a row of the [55, 512] centres. The program first wraps a negative label around
  by 55, gathers the row at the wrapped index, tests the wrapped index against `[0, 54]` and keeps the gathered
  row only where the test passes (a fill value elsewhere). For a label `t` with `0 ≤ t < 55`, read signed:
  `t < 0` fails, so nothing wraps; `0 ≤ t` holds and `t ≤ 54` follows from `t < 55`, so the test passes; the
  conjunction of the test over the one column of a [8192, 1] array is the test itself. Hence under the range
  the rows found are the gathered rows.
-/
import proofs.«419089_j1769526526580_1_alg».proof.Proof.KernelEntry

noncomputable section

namespace Cert.KernelIdeal.Entry

open Idealize.ShloMosaic Idealize.ShloMosaic.TcCoe Idealize.ShloMosaic.ValueIdx
open Cert.KernelIdeal Cert.KernelIdeal.Gen

variable (m : (ℓ : Loc nD τ sig) → Buf (Elt Ideal) ℓ)

/-! ## The rows the labels pick -/

/-- The labels of core `c`. -/
abbrev T (c : Dev nD) : IVec S8192 32 := m ((c : Thread nD τ).loc main_arg1)

/-- The row index read for each sample: a negative label first wraps around by 55. -/
abbrev wrapped (c : Dev nD) : IVec S8192 32 :=
  select (cmpi .slt (T m c) (broadcastInDim S8192 ![] bcast_S_S8192 (constantI S_ 32 0#32)))
    (addi (T m c) (broadcastInDim S8192 ![] bcast_S_S8192 (constantI S_ 32 55#32))) (T m c)

/-- The centre row each sample's label picks: the gather both programs make. -/
def picked (c : Dev nD) : (⟨S8192x512, .f32⟩ : BufTy).Contents (Elt Ideal) :=
  Host.gather gather_S55x512_S8192x1_S8192x512_1_0_n_n_0_1_1512 (m ((c.tc : Thread nD τ).loc main_arg2))
    (broadcastInDim S8192x1 ![0] bcast_S8192_S8192x1_0
      (select (cmpi .slt (T m c) (broadcastInDim S8192 ![] bcast_S_S8192 (constantI S_ 32 0#32)))
        (addi (T m c) (broadcastInDim S8192 ![] bcast_S_S8192 (constantI S_ 32 55#32))) (T m c)))

/-- Whether each sample's wrapped index lies in `[0, 54]`: the test made before a row is kept. -/
def inb (c : Dev nD) : IVec S8192x1 1 :=
  andi
    (cmpi .sge (broadcastInDim S8192x1 ![0] bcast_S8192_S8192x1_0 (wrapped m c))
      (broadcastInDim S8192x1 ![] bcast_S_S8192x1 (constantI S_ 32 0#32)))
    (cmpi .sle (broadcastInDim S8192x1 ![0] bcast_S8192_S8192x1_0 (wrapped m c))
      (broadcastInDim S8192x1 ![0, 1] bcast_S1x1_S8192x1_0_1 (broadcastInDim S1x1 ![1] bcast_S1_S1x1_1 (constantI S1 32 54#32))))

/-- What the first stretch leaves as picked rows: the gathered row where the index passed the test, the fill
    value elsewhere. -/
theorem v0_eq (c : Dev nD) :
    (V m c main_v0 : S8192x512.Idx → EReal)
      = select (broadcastInDim S8192x512 ![0] bcast_S8192_S8192x512_0
          (Host.reduce IntOp.andi (inb m c) (constantI S_ 1 1#1) reducesTo_S8192x1_S8192_d1 h_S_))
        (picked m c)
        (broadcastInDim S8192x512 ![] bcast_S_S8192x512 (constant (F := Ideal) S_ .f32 0x7FC00000#32)) := by
  show V0 m c (Proc.devRef .tc main_v0) = _
  rw [V0_split, stretch_v0]
  after_results_simp
  rfl

/-- A signed word that is at least 0 and below 55 is not below 0, and is at most 54. -/
theorem word_facts (t : BitVec 32) (h0 : IntOp.cmpi .sge t 0#32 = 1#1) (h1 : IntOp.cmpi .slt t 55#32 = 1#1) :
    IntOp.cmpi .slt t 0#32 = 0#1 ∧ IntOp.cmpi .sle t 54#32 = 1#1 := by
  have a0 : BitVec.ofBool ((0#32 : BitVec 32).sle t) = 1#1 := h0
  have a1 : BitVec.ofBool (t.slt 55#32) = 1#1 := h1
  rw [StableHlo.Predicate.ofBool_eq_one_iff] at a0 a1
  have z0 : (0#32 : BitVec 32).toInt = 0 := by decide
  have z55 : (55#32 : BitVec 32).toInt = 55 := by decide
  have z54 : (54#32 : BitVec 32).toInt = 54 := by decide
  simp only [BitVec.sle, BitVec.slt, decide_eq_true_eq, z0, z55] at a0 a1
  refine ⟨?_, ?_⟩
  · show BitVec.ofBool (t.slt 0#32) = 0#1
    have : t.slt 0#32 = false := by
      simp only [BitVec.slt, z0, decide_eq_false_iff_not]; omega
    rw [this]; rfl
  · show BitVec.ofBool (t.sle 54#32) = 1#1
    rw [StableHlo.Predicate.ofBool_eq_one_iff]
    simp only [BitVec.sle, z54, decide_eq_true_eq]; omega

/-- Under the range no label wraps. -/
theorem wrapped_apply (h : InRange m) (c : Dev nD) (R : Fin 8192) : wrapped m c (ix1 R) = T m c (ix1 R) := by
  show Scalar.select (IntOp.cmpi .slt (T m c (ix1 R)) 0#32) (IntOp.addi (T m c (ix1 R)) 55#32) (T m c (ix1 R)) = _
  rw [(word_facts _ (h c R).1 (h c R).2).1, select_zero]

/-- Under the range every index passes the test. -/
theorem inb_apply (h : InRange m) (c : Dev nD) (R : Fin 8192) : inb m c (ix2 R 0) = 1#1 := by
  unfold inb
  show IntOp.andi (IntOp.cmpi .sge (broadcastInDim S8192x1 ![0] bcast_S8192_S8192x1_0 (wrapped m c) (ix2 R 0)) 0#32)
        (IntOp.cmpi .sle (broadcastInDim S8192x1 ![0] bcast_S8192_S8192x1_0 (wrapped m c) (ix2 R 0)) 54#32) = 1#1
  rw [bcol_apply, wrapped_apply m h]
  exact IntOp.andi_eq_one.2 ⟨(h c R).1, (word_facts _ (h c R).1 (h c R).2).2⟩

/-- Dropping the unit axis of a [8192, 1] array keeps the first. -/
theorem red1 : S8192x1.Reduces [1] S8192 := by decide

/-- A conjunction over one term is that term joined to the start. -/
theorem fold_andi_one (f : Fin 1 → BitVec 1) (b : BitVec 1) :
    (Finset.univ : Finset (Fin 1)).fold IntOp.andi b f = IntOp.andi (f 0) b := by
  rw [Finset.univ_unique, Finset.fold_singleton]
  rfl

/-- The conjunction over the one column of the test is the test. -/
theorem mask_apply (h : InRange m) (c : Dev nD) (R : Fin 8192) :
    Host.reduce IntOp.andi (inb m c) (constantI S_ 1 1#1) reducesTo_S8192x1_S8192_d1 h_S_ (ix1 R) = 1#1 := by
  rw [Host.reduce_eq_fold_single IntOp.andi _ _ _ red1]
  refine (fold_andi_one (inb m c ∘ red1.lift (ix1 R)) 1#1).trans ?_
  refine IntOp.andi_eq_one.2 ⟨?_, rfl⟩
  have hl : red1.lift (ix1 R) (0 : Fin 1) = ix2 R 0 := by
    funext a; match a with | ⟨0, _⟩ => rfl | ⟨1, _⟩ => rfl
  show inb m c (red1.lift (ix1 R) (0 : Fin 1)) = 1#1
  rw [hl]
  exact inb_apply m h c R

/-- Under the range the region finds the picked rows themselves: the test keeps every row. -/
theorem entry_y (h : InRange m) (c : Dev nD) : V m c main_v0 = picked m c := by
  rw [v0_eq]
  funext j
  rw [select_apply]
  have hj : broadcastInDim S8192x512 ![0] bcast_S8192_S8192x512_0
      (Host.reduce IntOp.andi (inb m c) (constantI S_ 1 1#1) reducesTo_S8192x1_S8192_d1 h_S_) j = 1#1 := by
    refine (broadcastInDim_apply _ _ _ _ (ix1 (j 0)) (fun a => match a with | ⟨0, _⟩ => rfl)).trans ?_
    exact mask_apply m h c (j 0)
  rw [hj, select_one]

end Cert.KernelIdeal.Entry

end
-- ==== Proof.KernelValue.lean ====
/-
  The idealized kernel's two results as functions of the three inputs.

  Under the label range every label picks a real centre row, so the array of picked centres the region finds is the
  plain gather; its blocks, the two squared-norm vectors and the labels are the region's six inputs. The region
  leaves every row's hardest positive and hardest negative in its two results (Proof/KernelArrays.lean), and the
  program's closing lines average the margin loss and the indicator over the rows (Proof/MiningGoal.lean).
-/
import proofs.«419089_j1769526526580_1_alg».proof.Proof.KernelArrays
import proofs.«419089_j1769526526580_1_alg».proof.Proof.KernelPicked

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Accum Cert.KernelIdeal.Arrays Cert.KernelIdeal.Entry

variable (m : (ℓ : Loc nD τ sig) → Buf (Elt Ideal) ℓ) (ρ : Dev nD → PrngReg)

theorem pX_eq (c : Dev nD) : pX m c = Cert.Mining.rows (m ((c.tc : Thread nD τ).loc main_arg0)) := by
  funext R d
  show V m c main_arg0 (ix2 R d) = _
  rw [V_main_arg0 m c]
  rfl

theorem pY_eq (h : InRange m) (c : Dev nD) : pY m c = Cert.Mining.rows (picked m c) := by
  funext C d
  show V m c main_v0 (ix2 C d) = _
  rw [entry_y m h c]
  rfl

theorem pSx_eq (c : Dev nD) : pSx m c = Cert.Mining.sqn (Cert.Mining.rows (m ((c.tc : Thread nD τ).loc main_arg0))) :=
  funext fun R => entry_sx m c R

theorem pSy_eq (h : InRange m) (c : Dev nD) : pSy m c = Cert.Mining.sqn (Cert.Mining.rows (picked m c)) := by
  funext C
  show V m c main_v7 (ix2 0 C) = _
  rw [entry_sy m c C, entry_y m h c]

theorem pTi_eq (c : Dev nD) : pTi m c = Cert.Mining.labels (m ((c.tc : Thread nD τ).loc main_arg1)) :=
  funext fun R => entry_ti m c R

theorem pTj_eq (c : Dev nD) : pTj m c = Cert.Mining.labels (m ((c.tc : Thread nD τ).loc main_arg1)) :=
  funext fun C => entry_tj m c C

/-- The first result read as a vector: every row's hardest positive of the inputs. -/
theorem ap_eq (h : InRange m) (c : Dev nD) :
    (fun i : S8192.Idx => (dats m 0 c).arrAt 6 cfg0.N (ix2 (i 0) 0))
      = Cert.Mining.apVec (m ((c.tc : Thread nD τ).loc main_arg0)) (picked m c) (m ((c.tc : Thread nD τ).loc main_arg1)) := by
  funext i
  rw [final6 m c]
  unfold hardPosCol Cert.Mining.apVec
  rw [pX_eq, pY_eq m h, pSx_eq, pSy_eq m h, pTi_eq, pTj_eq]
  rfl

/-- The second result read as a vector: every row's hardest negative of the inputs. -/
theorem an_eq (h : InRange m) (c : Dev nD) :
    (fun i : S8192.Idx => (dats m 0 c).arrAt 7 cfg0.N (ix2 (i 0) 0))
      = Cert.Mining.anVec (m ((c.tc : Thread nD τ).loc main_arg0)) (picked m c) (m ((c.tc : Thread nD τ).loc main_arg1)) := by
  funext i
  rw [final7 m c]
  unfold hardNegCol Cert.Mining.anVec
  rw [pX_eq, pY_eq m h, pSx_eq, pSy_eq m h, pTi_eq, pTj_eq]
  rfl

/-- The run, read: the mean margin loss and the share of rows with the negative farther, of the inputs; the
    inputs unchanged. -/
theorem run (h : InRange m) : θ_run (defs (F := Ideal)) (onTc (τ := τ) (main (F := Ideal))) ⟨m, fun _ => 0, ρ⟩ fun r => ∀ c : Dev nD,
      r.2.mem ((c.tc : Thread nD τ).loc main_v19)
        = Cert.Mining.loss bcast_S_S8192 reducesTo_S8192_S_d0 h_S_
            (Cert.Mining.apVec (m ((c.tc : Thread nD τ).loc main_arg0)) (picked m c) (m ((c.tc : Thread nD τ).loc main_arg1)))
            (Cert.Mining.anVec (m ((c.tc : Thread nD τ).loc main_arg0)) (picked m c) (m ((c.tc : Thread nD τ).loc main_arg1)))
      ∧ r.2.mem ((c.tc : Thread nD τ).loc main_v23)
        = Cert.Mining.prec reducesTo_S8192_S_d0 h_S_
            (Cert.Mining.apVec (m ((c.tc : Thread nD τ).loc main_arg0)) (picked m c) (m ((c.tc : Thread nD τ).loc main_arg1)))
            (Cert.Mining.anVec (m ((c.tc : Thread nD τ).loc main_arg0)) (picked m c) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hh c =>
    ⟨((hh c).2 main_v19 (Pipeline.mem_restRefs_of main_v19 (by decide) (by decide))).trans
        ((tail_loss m c).trans (by rw [ap_eq m h c, an_eq m h c])),
      ((hh c).2 main_v23 (Pipeline.mem_restRefs_of main_v23 (by decide) (by decide))).trans
        ((tail_prec m c).trans (by rw [ap_eq m h c, an_eq m h c])),
      ((hh c).1 0).trans (((dats m 0 c).arrAt_in 0 rfl _).trans ((A_eq m c 0).trans (V_main_arg0 m c))),
      ((hh c).2 main_arg1 (Pipeline.mem_restRefs_of main_arg1 (by decide) (by decide))).trans (W_main_arg1 m (dats m) c),
      ((hh c).2 main_arg2 (Pipeline.mem_restRefs_of main_arg2 (by decide) (by decide))).trans (W_main_arg2 m (dats m) c)⟩)
    (run_main m ρ)

end Cert.KernelIdeal.Result

end
-- ==== Proof.RefValue.lean ====
import proofs.«419089_j1769526526580_1_alg».proof.Defs
import proofs.«419089_j1769526526580_1_alg».proof.Proof.RefRead
import proofs.«419089_j1769526526580_1_alg».proof.Proof.MiningSpec
import proofs.«419089_j1769526526580_1_alg».proof.Proof.MiningGoal
import Idealize.ShloMosaic.PureOps.Reduce
import Idealize.ShloMosaic.PureOps.Ideal.Laws
import Idealize.ShloMosaic.Lib.ValueIdx

/-!
  The reference program computes the mining functions.

  Read at an index (R, C) of the 8192 × 8192 table, the reference's clamped root is the distance
  `√(max ε ((sx R + sy C) − 2 · Σ_d X R d · Y C d))` between feature row `R` and the centre row picked for
  sample `C`, its label comparison is `same`, and its two masked tables are the positive entry (the distance on a
  same-label column, −∞ elsewhere) and the negative entry (+∞ on a same-label column, the distance elsewhere).
  A reduction of the table over its column axis is, at row `R`, the fold of the body over the 8192 columns from
  the initial value; the words `0xFF800000` and `0x7F800000` denote −∞ and +∞, the bottom and the top of the
  extended reals, so the two reductions are the hardest positive and the hardest negative of the row. The closing
  lines of the program are then, word for word, the two means of the goal.
-/

noncomputable section

namespace Cert.ReferenceIdeal.RefValue

open Cert.ReferenceIdeal Cert.ReferenceIdeal.Gen Cert.ReferenceIdeal.PRead
open Idealize.ShloMosaic Idealize.ShloMosaic.ValueIdx Idealize.ShloMosaic.TcCoe Idealize.SL.Sem Idealize.ShloMosaic.StableHlo
open Cert.Mining

/-- The word `0xFF800000` denotes −∞. -/
theorem negInf : Ideal.ofBits .f32 0xFF800000#32 = (⊥ : EReal) := by simp [Ideal.ofBits, Ideal.ieee]

/-- The word `0x7F800000` denotes +∞. -/
theorem posInf : Ideal.ofBits .f32 0x7F800000#32 = (⊤ : EReal) := by simp [Ideal.ofBits, Ideal.ieee]

variable (x0 : (⟨S8192x512, .f32⟩ : BufTy).Contents (Elt Ideal)) (x1 : (⟨S8192, .i32⟩ : BufTy).Contents (Elt Ideal))
  (x2 : (⟨S55x512, .f32⟩ : BufTy).Contents (Elt Ideal))

/-! ## The distance table at an index -/

/-- The broadcast row norms at (R, C): the squared norm of feature row `R`. -/
theorem rowNorm_eq (R C : Fin 8192) :
    val_main_v13 (F := Ideal) x0 (ix2 R C) = sqn (rows x0) R := by
  rw [val_main_v13_apply, val_main_v9_apply, val_main_v8_apply, val_main_cst_apply]
  unfold sqn rows
  refine congrArg (_ + ·) (Finset.sum_congr rfl fun k _ => ?_)
  rw [val_main_v7_apply]
  have e : idx_main_v8 (idx_main_v9 (idx_main_v13 (ix2 R C))) k = ix2 R k :=
    funext fun a => Fin.ext (by match a with | ⟨0, _⟩ => rfl | ⟨1, _⟩ => rfl)
  rw [e]
  rfl

/-- The broadcast centre norms at (R, C): the squared norm of the centre row picked for sample `C`. -/
theorem centreNorm_eq (R C : Fin 8192) :
    val_main_v14 (F := Ideal) x1 x2 (ix2 R C) = sqn (rows (val_main_v6 (F := Ideal) x1 x2)) C := by
  rw [val_main_v14_apply, val_main_v12_apply, val_main_v11_apply, val_main_cst_1_apply]
  unfold sqn rows
  refine congrArg (_ + ·) (Finset.sum_congr rfl fun k _ => ?_)
  rw [val_main_v10_apply]
  have e : idx_main_v11 (idx_main_v12 (idx_main_v14 (ix2 R C))) k = ix2 C k :=
    funext fun a => Fin.ext (by match a with | ⟨0, _⟩ => rfl | ⟨1, _⟩ => rfl)
  rw [e]
  rfl

/-- Twice the product table at (R, C): the factor two times the inner product of feature row `R` with the centre
    row of sample `C` (the transposed centres read back at (C, d)). -/
theorem cross_eq (R C : Fin 8192) :
    val_main_v19 (F := Ideal) x0 x1 x2 (ix2 R C)
      = two * ∑ d : Fin 512, rows x0 R d * rows (val_main_v6 (F := Ideal) x1 x2) C d := by
  rw [val_main_v19_apply, val_main_v18_apply, val_main_cst_2_apply, val_main_v17_apply]
  unfold two rows
  show (Ideal.ofBits .f32 0x40000000#32 : EReal) * _ = _ * _
  refine congrArg (_ * ·) (Finset.sum_congr rfl fun k _ => ?_)
  rw [val_main_v16_apply]
  have el : lidx_main_v17 (ix2 R C) k = ix2 R k :=
    funext fun a => Fin.ext (by match a with | ⟨0, _⟩ => rfl | ⟨1, _⟩ => rfl)
  have er : idx_main_v16 (ridx_main_v17 (ix2 R C) k) = ix2 C k :=
    funext fun a => Fin.ext (by match a with | ⟨0, _⟩ => rfl | ⟨1, _⟩ => rfl)
  rw [el, er]

/-- The clamped root at (R, C) is the distance from feature row `R` to the centre of sample `C`. -/
theorem dist_eq (R C : Fin 8192) :
    val_main_v22 (F := Ideal) x0 x1 x2 (ix2 R C)
      = dist (rows x0) (rows (val_main_v6 (F := Ideal) x1 x2)) (sqn (rows x0))
          (sqn (rows (val_main_v6 (F := Ideal) x1 x2))) R C := by
  rw [val_main_v22_apply, val_main_v21_apply, val_main_call0_v1_apply, val_main_call0_v0_apply, val_main_cst_3_apply,
    val_main_v20_apply, val_main_v15_apply, rowNorm_eq, centreNorm_eq, cross_eq]
  rfl

/-- The label comparison at (R, C). -/
theorem same_eq (R C : Fin 8192) :
    val_main_v27 (F := Ideal) x1 (ix2 R C) = same (labels x1) (labels x1) R C := by
  rw [val_main_v27_apply, val_main_v25_apply, val_main_v23_apply, val_main_v26_apply, val_main_v24_apply]
  have e1 : idx_main_v23 (idx_main_v25 (ix2 R C)) = ix1 R :=
    funext fun a => Fin.ext (by match a with | ⟨0, _⟩ => rfl)
  have e2 : idx_main_v24 (idx_main_v26 (ix2 R C)) = ix1 C :=
    funext fun a => Fin.ext (by match a with | ⟨0, _⟩ => rfl)
  rw [e1, e2]
  rfl

/-- The positive table at (R, C). -/
theorem pos_eq (R C : Fin 8192) :
    val_main_v28 (F := Ideal) x0 x1 x2 (ix2 R C)
      = posEntry (rows x0) (rows (val_main_v6 (F := Ideal) x1 x2)) (sqn (rows x0))
          (sqn (rows (val_main_v6 (F := Ideal) x1 x2))) (labels x1) (labels x1) R C := by
  rw [val_main_v28_apply, val_main_call1_v1_apply, val_main_call1_v0_apply, val_main_cst_4_apply, dist_eq, same_eq]
  unfold posEntry
  exact congrArg (Scalar.select _ _) negInf

/-- The negative table at (R, C). -/
theorem neg_eq (R C : Fin 8192) :
    val_main_v30 (F := Ideal) x0 x1 x2 (ix2 R C)
      = negEntry (rows x0) (rows (val_main_v6 (F := Ideal) x1 x2)) (sqn (rows x0))
          (sqn (rows (val_main_v6 (F := Ideal) x1 x2))) (labels x1) (labels x1) R C := by
  rw [val_main_v30_apply, val_main_call2_v1_apply, val_main_call2_v0_apply, val_main_cst_6_apply, dist_eq, same_eq]
  unfold negEntry
  exact congrArg (fun t => Scalar.select _ t _) posInf

/-! ## The two reductions over the columns -/

/-- Row `R` of the table with column `k` put back on the reduced axis is (R, k). -/
theorem lift_row (h : S8192x8192.Reduces [1] S8192) (R : Fin 8192) (k : Fin (S8192x8192.size 1)) :
    h.lift (ix1 R) k = ix2 R (⟨k.val, k.isLt⟩ : Fin 8192) := by
  funext c
  apply Fin.ext
  match c with
  | ⟨0, _⟩ => rfl
  | ⟨1, _⟩ => rfl

/-- The fold of the maximum from −∞ over the columns of row `R` of the positive table is the hardest positive. -/
theorem rowMax_eq (h : S8192x8192.Reduces [1] S8192) (R : Fin 8192) :
    (Finset.univ : Finset (Fin (S8192x8192.size 1))).fold (FloatOps.maximumf (F := Ideal) (φ := .f32))
        ((val_main_cst_5 (F := Ideal)) (Shape.Idx.first h_S_)) (val_main_v28 (F := Ideal) x0 x1 x2 ∘ h.lift (ix1 R))
      = hardPos (rows x0) (rows (val_main_v6 (F := Ideal) x1 x2)) (sqn (rows x0))
          (sqn (rows (val_main_v6 (F := Ideal) x1 x2))) (labels x1) (labels x1) R := by
  have hf : (val_main_v28 (F := Ideal) x0 x1 x2 ∘ h.lift (ix1 R))
      = fun k : Fin 8192 => posEntry (rows x0) (rows (val_main_v6 (F := Ideal) x1 x2)) (sqn (rows x0))
          (sqn (rows (val_main_v6 (F := Ideal) x1 x2))) (labels x1) (labels x1) R k :=
    funext fun k => by
      show val_main_v28 (F := Ideal) x0 x1 x2 (h.lift (ix1 R) k) = _
      rw [lift_row h R k, pos_eq]
      rfl
  have e0 : (val_main_cst_5 (F := Ideal)) (Shape.Idx.first h_S_) = (⊥ : EReal) := negInf
  rw [hf, e0]
  rfl

/-- The fold of the minimum from +∞ over the columns of row `R` of the negative table is the hardest negative. -/
theorem rowMin_eq (h : S8192x8192.Reduces [1] S8192) (R : Fin 8192) :
    (Finset.univ : Finset (Fin (S8192x8192.size 1))).fold (FloatOps.minimumf (F := Ideal) (φ := .f32))
        ((val_main_cst_7 (F := Ideal)) (Shape.Idx.first h_S_)) (val_main_v30 (F := Ideal) x0 x1 x2 ∘ h.lift (ix1 R))
      = hardNeg (rows x0) (rows (val_main_v6 (F := Ideal) x1 x2)) (sqn (rows x0))
          (sqn (rows (val_main_v6 (F := Ideal) x1 x2))) (labels x1) (labels x1) R := by
  have hf : (val_main_v30 (F := Ideal) x0 x1 x2 ∘ h.lift (ix1 R))
      = fun k : Fin 8192 => negEntry (rows x0) (rows (val_main_v6 (F := Ideal) x1 x2)) (sqn (rows x0))
          (sqn (rows (val_main_v6 (F := Ideal) x1 x2))) (labels x1) (labels x1) R k :=
    funext fun k => by
      show val_main_v30 (F := Ideal) x0 x1 x2 (h.lift (ix1 R) k) = _
      rw [lift_row h R k, neg_eq]
      rfl
  have e0 : (val_main_cst_7 (F := Ideal)) (Shape.Idx.first h_S_) = (⊤ : EReal) := posInf
  rw [hf, e0]
  rfl

/-- The reference's row maximum is the vector of hardest positives. -/
theorem ap_eq :
    val_main_v29 (F := Ideal) x0 x1 x2 = apVec x0 (val_main_v6 (F := Ideal) x1 x2) x1 := by
  funext i
  obtain ⟨R, rfl⟩ : ∃ R : Fin 8192, i = ix1 R := ⟨i 0, eq_ix1 i⟩
  have h : S8192x8192.Reduces [1] S8192 := by decide
  unfold val_main_v29
  rw [Host.reduce_eq_fold_single FloatOps.maximumf _ _ reducesTo_S8192x8192_S8192_d1 h h_S_]
  exact rowMax_eq x0 x1 x2 h R

/-- The reference's row minimum is the vector of hardest negatives. -/
theorem an_eq :
    val_main_v31 (F := Ideal) x0 x1 x2 = anVec x0 (val_main_v6 (F := Ideal) x1 x2) x1 := by
  funext i
  obtain ⟨R, rfl⟩ : ∃ R : Fin 8192, i = ix1 R := ⟨i 0, eq_ix1 i⟩
  have h : S8192x8192.Reduces [1] S8192 := by decide
  unfold val_main_v31
  rw [Host.reduce_eq_fold_single FloatOps.minimumf _ _ reducesTo_S8192x8192_S8192_d1 h h_S_]
  exact rowMin_eq x0 x1 x2 h R

/-! ## The two means -/

/-- The reference's first result is the margin loss of the two vectors. -/
theorem loss_eq :
    val_main_v38 (F := Ideal) x0 x1 x2
      = loss bcast_S_S8192 reducesTo_S8192_S_d0 h_S_ (apVec x0 (val_main_v6 (F := Ideal) x1 x2) x1)
          (anVec x0 (val_main_v6 (F := Ideal) x1 x2) x1) := by
  unfold val_main_v38 val_main_v37 val_main_v36 val_main_v34 val_main_v32
  rw [ap_eq, an_eq]
  rfl

/-- The reference's second result is the share of rows whose hardest negative is the farther. -/
theorem prec_eq :
    val_main_v42 (F := Ideal) x0 x1 x2
      = prec reducesTo_S8192_S_d0 h_S_ (apVec x0 (val_main_v6 (F := Ideal) x1 x2) x1)
          (anVec x0 (val_main_v6 (F := Ideal) x1 x2) x1) := by
  unfold val_main_v42 val_main_v41 val_main_v40 val_main_v39
  rw [ap_eq, an_eq]
  rfl

end Cert.ReferenceIdeal.RefValue

end
-- ==== Proof.RefRun.lean ====
import proofs.«419089_j1769526526580_1_alg».proof.Proof.RefOps
import proofs.«419089_j1769526526580_1_alg».proof.Proof.RefRead
import Idealize.ShloMosaic.Lib.Pipeline.Frame

/-!
  The reference's run, read stage by stage.

  @main is a straight line of 65 host operations, each writing one buffer of its own from buffers written before
  it. What the buffers hold after the line is the fold of the operations' results over the launch contents. The
  line is cut at nine points where few buffers are still to be read; between two cuts the buffers a later
  operation reads hold the stages of the program (the functions `val_…` of the three arguments), provided the
  buffers read from before the cut do: an invariant per cut, carried across each stretch by evaluating that
  stretch's operations only. At the end the two result buffers hold the last two stages. No operation writes an
  argument's buffer, so the arguments end as they were launched.

  @main calls three module-local functions (the clamp and the two selections); their bodies stand in the calls'
  places, so @main is the line of operations once the binds are re-associated.
-/

noncomputable section

namespace Cert.ReferenceIdeal.PValue

open Cert.ReferenceIdeal Cert.ReferenceIdeal.Gen Idealize.ShloMosaic Idealize.ShloMosaic.TcCoe Idealize.SL.Sem Idealize.ShloMosaic.StableHlo
open Cert.ReferenceIdeal.PRead

variable {F : FTy → Type} [FloatOps F]

/-! ## @main is the line of its operations -/

set_option maxRecDepth 8192 in
/-- Unfolding the three called bodies and re-associating the binds leaves the operations in order. -/
theorem main_eq (c : Dev nD) : main (F := F) c = seq ops := by
  unfold main
  simp only [fn_clip.body, fn_where.body, fn_where_0.body, bind_assoc, pure_bind]
  rfl

/-- Every operation of the line determines its result. -/
theorem ops_fresh : ∀ op ∈ (ops : List (HloOp τ sig (Elt F))), op.fresh = ∅ :=
  List.forall_iff_forall_mem.mp (by
    simp only [ops, List.Forall]
    repeat' apply And.intro
    all_goals rfl)

/-! ## The line in nine stretches -/

/-- The class indices clamped into range and the centre row of each sample gathered (operations 1 to 9). -/
abbrev c1 : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg1 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 55#32),
    unary main_c_0 main_v2 (broadcastInDim S8192 ![] bcast_S_S8192 : (⟨S_, .i32⟩ : BufTy).Contents (Elt F) → (⟨S8192, .i32⟩ : BufTy).Contents (Elt F)),
    binary main_arg1 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg1 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg2 main_v5 main_v6 ((fun x i => Host.gather gather_S55x512_S8192x1_S8192x512_1_0_n_n_0_1_1512 x i) : (⟨S55x512, .f32⟩ : BufTy).Contents (Elt F) → (⟨S8192x1, .i32⟩ : BufTy).Contents (Elt F) → (⟨S8192x512, .f32⟩ : BufTy).Contents (Elt F)) ]

/-- The squared norms of the feature rows, as a column, and of the picked centre rows, as a row (operations 10 to 17). -/
abbrev c2 : List (HloOp τ sig (Elt F)) :=
  [ binary main_arg0 main_arg0 main_v7 (mulf : (⟨S8192x512, .f32⟩ : BufTy).Contents (Elt F) → (⟨S8192x512, .f32⟩ : BufTy).Contents (Elt F) → (⟨S8192x512, .f32⟩ : BufTy).Contents (Elt F)),
    nullary main_cst (constant S_ .f32 0x00000000#32),
    binary main_v7 main_cst main_v8 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    binary main_v6 main_v6 main_v10 (mulf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x00000000#32),
    binary main_v10 main_cst_1 main_v11 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    unary main_v11 main_v12 (broadcastInDim S1x8192 ![1] bcast_S8192_S1x8192_1 : (⟨S8192, .f32⟩ : BufTy).Contents (Elt F) → (⟨S1x8192, .f32⟩ : BufTy).Contents (Elt F)) ]

/-- The two norms spread over the table and added, the product of the features with the transposed centres, and their difference with twice the product (operations 18 to 26). -/
abbrev c3 : List (HloOp τ sig (Elt F)) :=
  [ unary main_v9 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (addf : (⟨S8192x8192, .f32⟩ : BufTy).Contents (Elt F) → (⟨S8192x8192, .f32⟩ : BufTy).Contents (Elt F) → (⟨S8192x8192, .f32⟩ : BufTy).Contents (Elt F)),
    unary main_v6 main_v16 ((transpose S512x8192 [1, 0] · transposes_S8192x512_S512x8192_1_0) : (⟨S8192x512, .f32⟩ : BufTy).Contents (Elt F) → (⟨S512x8192, .f32⟩ : BufTy).Contents (Elt F)),
    binary main_arg0 main_v16 main_v17 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_2 (constant S_ .f32 0x40000000#32),
    unary main_cst_2 main_v18 (broadcastInDim S8192x8192 ![] bcast_S_S8192x8192 : (⟨S_, .f32⟩ : BufTy).Contents (Elt F) → (⟨S8192x8192, .f32⟩ : BufTy).Contents (Elt F)),
    binary main_v18 main_v17 main_v19 (mulf : (⟨S8192x8192, .f32⟩ : BufTy).Contents (Elt F) → (⟨S8192x8192, .f32⟩ : BufTy).Contents (Elt F) → (⟨S8192x8192, .f32⟩ : BufTy).Contents (Elt F)),
    binary main_v15 main_v19 main_v20 (subf : (⟨S8192x8192, .f32⟩ : BufTy).Contents (Elt F) → (⟨S8192x8192, .f32⟩ : BufTy).Contents (Elt F) → (⟨S8192x8192, .f32⟩ : BufTy).Contents (Elt F)) ]

/-- The clamp from below and the square root: the distance table (operations 27 to 31). -/
abbrev c4 : List (HloOp τ sig (Elt F)) :=
  [ nullary main_cst_3 (constant S_ .f32 0x2B8CBCCC#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192x8192, .f32⟩) main_call0_v1) (broadcastInDim S8192x8192 ![] bcast_S_S8192x8192),
    TRef.binary (TRef.of (T := ⟨S8192x8192, .f32⟩) main_call0_v1) (TRef.of (T := ⟨S8192x8192, .f32⟩) main_v20) (TRef.of (T := ⟨S8192x8192, .f32⟩) main_v21) maximumf,
    unary main_v21 main_v22 (Host.sqrt : (⟨S8192x8192, .f32⟩ : BufTy).Contents (Elt F) → (⟨S8192x8192, .f32⟩ : BufTy).Contents (Elt F)) ]

/-- The labels spread along both axes and compared: the same-label table (operations 32 to 36). -/
abbrev c5 : List (HloOp τ sig (Elt F)) :=
  [ unary main_arg1 main_v23 (broadcastInDim S8192x1 ![0] bcast_S8192_S8192x1_0 : (⟨S8192, .i32⟩ : BufTy).Contents (Elt F) → (⟨S8192x1, .i32⟩ : BufTy).Contents (Elt F)),
    unary main_arg1 main_v24 (broadcastInDim S1x8192 ![1] bcast_S8192_S1x8192_1 : (⟨S8192, .i32⟩ : BufTy).Contents (Elt F) → (⟨S1x8192, .i32⟩ : BufTy).Contents (Elt F)),
    unary main_v23 main_v25 (broadcastInDim S8192x8192 ![0, 1] bcast_S8192x1_S8192x8192_0_1 : (⟨S8192x1, .i32⟩ : BufTy).Contents (Elt F) → (⟨S8192x8192, .i32⟩ : BufTy).Contents (Elt F)),
    unary main_v24 main_v26 (broadcastInDim S8192x8192 ![0, 1] bcast_S1x8192_S8192x8192_0_1 : (⟨S1x8192, .i32⟩ : BufTy).Contents (Elt F) → (⟨S8192x8192, .i32⟩ : BufTy).Contents (Elt F)),
    binary main_v25 main_v26 main_v27 (cmpi .eq : (⟨S8192x8192, .i32⟩ : BufTy).Contents (Elt F) → (⟨S8192x8192, .i32⟩ : BufTy).Contents (Elt F) → (⟨S8192x8192, .i1⟩ : BufTy).Contents (Elt F)) ]

/-- The positive table and its maximum along each row (operations 37 to 42). -/
abbrev c6 : List (HloOp τ sig (Elt F)) :=
  [ nullary main_cst_4 (constant S_ .f32 0xFF800000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S8192x8192, .f32⟩) main_call1_v1) (broadcastInDim S8192x8192 ![] bcast_S_S8192x8192),
    TRef.ternary (TRef.of (T := ⟨S8192x8192, .i1⟩) main_v27) (TRef.of (T := ⟨S8192x8192, .f32⟩) main_v22) (TRef.of (T := ⟨S8192x8192, .f32⟩) main_call1_v1) (TRef.of (T := ⟨S8192x8192, .f32⟩) main_v28) select,
    nullary main_cst_5 (constant S_ .f32 0xFF800000#32),
    binary main_v28 main_cst_5 main_v29 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- The negative table and its minimum along each row (operations 43 to 48). -/
abbrev c7 : List (HloOp τ sig (Elt F)) :=
  [ nullary main_cst_6 (constant S_ .f32 0x7F800000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S8192x8192, .f32⟩) main_call2_v1) (broadcastInDim S8192x8192 ![] bcast_S_S8192x8192),
    TRef.ternary (TRef.of (T := ⟨S8192x8192, .i1⟩) main_v27) (TRef.of (T := ⟨S8192x8192, .f32⟩) main_call2_v1) (TRef.of (T := ⟨S8192x8192, .f32⟩) main_v22) (TRef.of (T := ⟨S8192x8192, .f32⟩) main_v30) select,
    nullary main_cst_7 (constant S_ .f32 0x7F800000#32),
    binary main_v30 main_cst_7 main_v31 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- The margin loss: the mean of the clamped differences (operations 49 to 59). -/
abbrev c8 : List (HloOp τ sig (Elt F)) :=
  [ binary main_v29 main_v31 main_v32 (subf : (⟨S8192, .f32⟩ : BufTy).Contents (Elt F) → (⟨S8192, .f32⟩ : BufTy).Contents (Elt F) → (⟨S8192, .f32⟩ : BufTy).Contents (Elt F)),
    nullary main_cst_8 (constant S_ .f32 0x3E4CCCCD#32),
    unary main_cst_8 main_v33 (broadcastInDim S8192 ![] bcast_S_S8192 : (⟨S_, .f32⟩ : BufTy).Contents (Elt F) → (⟨S8192, .f32⟩ : BufTy).Contents (Elt F)),
    binary main_v32 main_v33 main_v34 (addf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    unary main_cst_9 main_v35 (broadcastInDim S8192 ![] bcast_S_S8192 : (⟨S_, .f32⟩ : BufTy).Contents (Elt F) → (⟨S8192, .f32⟩ : BufTy).Contents (Elt F)),
    binary main_v34 main_v35 main_v36 (maximumf : (⟨S8192, .f32⟩ : BufTy).Contents (Elt F) → (⟨S8192, .f32⟩ : BufTy).Contents (Elt F) → (⟨S8192, .f32⟩ : BufTy).Contents (Elt F)),
    nullary main_cst_10 (constant S_ .f32 0x00000000#32),
    binary main_v36 main_cst_10 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_11 (constant S_ .f32 0x46000000#32),
    binary main_v37 main_cst_11 main_v38 (Host.divf : (⟨S_, .f32⟩ : BufTy).Contents (Elt F) → (⟨S_, .f32⟩ : BufTy).Contents (Elt F) → (⟨S_, .f32⟩ : BufTy).Contents (Elt F)) ]

/-- The share of rows whose hardest negative is the farther (operations 60 to 65). -/
abbrev c9 : List (HloOp τ sig (Elt F)) :=
  [ binary main_v31 main_v29 main_v39 (cmpf .ogt : (⟨S8192, .f32⟩ : BufTy).Contents (Elt F) → (⟨S8192, .f32⟩ : BufTy).Contents (Elt F) → (⟨S8192, .i1⟩ : BufTy).Contents (Elt F)),
    unary main_v39 main_v40 (uitofp .f32 : (⟨S8192, .i1⟩ : BufTy).Contents (Elt F) → (⟨S8192, .f32⟩ : BufTy).Contents (Elt F)),
    nullary main_cst_12 (constant S_ .f32 0x00000000#32),
    binary main_v40 main_cst_12 main_v41 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_13 (constant S_ .f32 0x46000000#32),
    binary main_v41 main_cst_13 main_v42 (Host.divf : (⟨S_, .f32⟩ : BufTy).Contents (Elt F) → (⟨S_, .f32⟩ : BufTy).Contents (Elt F) → (⟨S_, .f32⟩ : BufTy).Contents (Elt F)) ]

/-- The line is its nine stretches in order. -/
theorem ops_eq : (ops : List (HloOp τ sig (Elt F))) = c1 ++ (c2 ++ (c3 ++ (c4 ++ (c5 ++ (c6 ++ (c7 ++ (c8 ++ c9))))))) := rfl

/-! ## What the live buffers hold at each cut -/

/-- At the launch: the three arguments. -/
structure Inv0 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  arg0 : W (Proc.devRef .tc main_arg0) = x0
  arg1 : W (Proc.devRef .tc main_arg1) = x1
  arg2 : W (Proc.devRef .tc main_arg2) = x2

/-- After the gather: the features, the labels and the picked centre rows. -/
structure Inv1 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  arg0 : W (Proc.devRef .tc main_arg0) = x0
  arg1 : W (Proc.devRef .tc main_arg1) = x1
  v6 : W (Proc.devRef .tc main_v6) = val_main_v6 (F := F) x1 x2

/-- After the norms: besides, the column of feature norms and the row of centre norms. -/
structure Inv2 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  arg0 : W (Proc.devRef .tc main_arg0) = x0
  arg1 : W (Proc.devRef .tc main_arg1) = x1
  v6 : W (Proc.devRef .tc main_v6) = val_main_v6 (F := F) x1 x2
  v9 : W (Proc.devRef .tc main_v9) = val_main_v9 (F := F) x0
  v12 : W (Proc.devRef .tc main_v12) = val_main_v12 (F := F) x1 x2

/-- After the expansion: the labels and the table of squared distances. -/
structure Inv3 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  arg1 : W (Proc.devRef .tc main_arg1) = x1
  v20 : W (Proc.devRef .tc main_v20) = val_main_v20 (F := F) x0 x1 x2

/-- After the root: the labels and the distance table. -/
structure Inv4 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  arg1 : W (Proc.devRef .tc main_arg1) = x1
  v22 : W (Proc.devRef .tc main_v22) = val_main_v22 (F := F) x0 x1 x2

/-- After the comparison: the distance table and the same-label table. -/
structure Inv5 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  v22 : W (Proc.devRef .tc main_v22) = val_main_v22 (F := F) x0 x1 x2
  v27 : W (Proc.devRef .tc main_v27) = val_main_v27 (F := F) x1

/-- After the row maximum: besides, the hardest positives. -/
structure Inv6 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  v22 : W (Proc.devRef .tc main_v22) = val_main_v22 (F := F) x0 x1 x2
  v27 : W (Proc.devRef .tc main_v27) = val_main_v27 (F := F) x1
  v29 : W (Proc.devRef .tc main_v29) = val_main_v29 (F := F) x0 x1 x2

/-- After the row minimum: the hardest positives and the hardest negatives. -/
structure Inv7 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  v29 : W (Proc.devRef .tc main_v29) = val_main_v29 (F := F) x0 x1 x2
  v31 : W (Proc.devRef .tc main_v31) = val_main_v31 (F := F) x0 x1 x2

/-- After the first mean: besides, the margin loss. -/
structure Inv8 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  v29 : W (Proc.devRef .tc main_v29) = val_main_v29 (F := F) x0 x1 x2
  v31 : W (Proc.devRef .tc main_v31) = val_main_v31 (F := F) x0 x1 x2
  v38 : W (Proc.devRef .tc main_v38) = val_main_v38 (F := F) x0 x1 x2

/-- At the end: the two results. -/
structure Inv9 (W : Valuation τ sig (Elt F)) (x0 : (⟨S8192x512, .f32⟩ : BufTy).Contents (Elt F)) (x1 : (⟨S8192, .i32⟩ : BufTy).Contents (Elt F)) (x2 : (⟨S55x512, .f32⟩ : BufTy).Contents (Elt F)) : Prop where
  v38 : W (Proc.devRef .tc main_v38) = val_main_v38 (F := F) x0 x1 x2
  v42 : W (Proc.devRef .tc main_v42) = val_main_v42 (F := F) x0 x1 x2

/-! ## Each stretch carries the invariant to the next cut -/

/-- The gather's stretch: the clamped class indices pick the centre rows. -/
theorem step1 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv0 W x0 x1 x2) : Inv1 (after c1 W) x0 x1 x2 where
  arg0 := by
    after_results
    exact h.arg0
  arg1 := by
    after_results
    exact h.arg1
  v6 := by
    after_results
    rw [h.arg1, h.arg2]
    rfl

/-- The norms' stretch. -/
theorem step2 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv1 W x0 x1 x2) : Inv2 (after c2 W) x0 x1 x2 where
  arg0 := by
    after_results
    exact h.arg0
  arg1 := by
    after_results
    exact h.arg1
  v6 := by
    after_results
    exact h.v6
  v9 := by
    after_results
    rw [h.arg0]
    rfl
  v12 := by
    after_results
    rw [h.v6]
    rfl

/-- The expansion's stretch. -/
theorem step3 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv2 W x0 x1 x2) : Inv3 (after c3 W) x0 x1 x2 where
  arg1 := by
    after_results
    exact h.arg1
  v20 := by
    after_results
    rw [h.arg0, h.v6, h.v9, h.v12]
    rfl

/-- The root's stretch. -/
theorem step4 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv3 W x0 x1 x2) : Inv4 (after c4 W) x0 x1 x2 where
  arg1 := by
    after_results
    exact h.arg1
  v22 := by
    after_results
    rw [h.v20]
    rfl

/-- The comparison's stretch. -/
theorem step5 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv4 W x0 x1 x2) : Inv5 (after c5 W) x0 x1 x2 where
  v22 := by
    after_results
    exact h.v22
  v27 := by
    after_results
    rw [h.arg1]
    rfl

/-- The row maximum's stretch. -/
theorem step6 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv5 W x0 x1 x2) : Inv6 (after c6 W) x0 x1 x2 where
  v22 := by
    after_results
    exact h.v22
  v27 := by
    after_results
    exact h.v27
  v29 := by
    after_results
    rw [h.v22, h.v27]
    rfl

/-- The row minimum's stretch. -/
theorem step7 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv6 W x0 x1 x2) : Inv7 (after c7 W) x0 x1 x2 where
  v29 := by
    after_results
    exact h.v29
  v31 := by
    after_results
    rw [h.v22, h.v27]
    rfl

/-- The first mean's stretch. -/
theorem step8 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv7 W x0 x1 x2) : Inv8 (after c8 W) x0 x1 x2 where
  v29 := by
    after_results
    exact h.v29
  v31 := by
    after_results
    exact h.v31
  v38 := by
    after_results
    rw [h.v29, h.v31]
    rfl

/-- The second mean's stretch. -/
theorem step9 {W : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv8 W x0 x1 x2) : Inv9 (after c9 W) x0 x1 x2 where
  v38 := by
    after_results
    exact h.v38
  v42 := by
    after_results
    rw [h.v29, h.v31]
    rfl

/-- From the launch contents the whole line ends with the two results at the last two stages. -/
theorem after_ops {V : Valuation τ sig (Elt F)} {x0 : (⟨S8192x512, .f32⟩ : BufTy).Contents (Elt F)} {x1 : (⟨S8192, .i32⟩ : BufTy).Contents (Elt F)}
    {x2 : (⟨S55x512, .f32⟩ : BufTy).Contents (Elt F)} (h : Inv0 V x0 x1 x2) : Inv9 (after ops V) x0 x1 x2 := by
  rw [ops_eq]
  simp only [StableHlo.after_append]
  exact step9 (step8 (step7 (step6 (step5 (step4 (step3 (step2 (step1 h))))))))

/-! ## The arguments are never written -/

/-- Each operation writes its own result buffer only, and none of the 65 is the first argument's. -/
theorem kept_arg0 (V : Valuation τ sig (Elt F)) : after ops V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, Finset.mem_singleton]
    repeat' apply And.intro
    all_goals exact devRef_ne_of_ne (by decide)))

/-- Nor the second argument's. -/
theorem kept_arg1 (V : Valuation τ sig (Elt F)) : after ops V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, Finset.mem_singleton]
    repeat' apply And.intro
    all_goals exact devRef_ne_of_ne (by decide)))

/-- Nor the third argument's. -/
theorem kept_arg2 (V : Valuation τ sig (Elt F)) : after ops V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, Finset.mem_singleton]
    repeat' apply And.intro
    all_goals exact devRef_ne_of_ne (by decide)))

/-! ## The run -/

/-- On every device, for any float values, from any memory with zero counters: every weakly fair execution of
    @main terminates with the two results at the last two stages of the launch contents and the three arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = val_main_v38 (F := F) (m ((c.tc : Thread nD τ).loc main_arg0)) (m ((c.tc : Thread nD τ).loc main_arg1)) (m ((c.tc : Thread nD τ).loc main_arg2))
      ∧ r.2.mem ((c.tc : Thread nD τ).loc main_v42)
          = val_main_v42 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c =>
      have hi : Inv9 (after ops (launchContents m c)) (m ((c.tc : Thread nD τ).loc main_arg0)) (m ((c.tc : Thread nD τ).loc main_arg1))
          (m ((c.tc : Thread nD τ).loc main_arg2)) := after_ops ⟨rfl, rfl, rfl⟩
      ⟨(h c main_v38).trans hi.v38, (h c main_v42).trans hi.v42, (h c main_arg0).trans (kept_arg0 _),
        (h c main_arg1).trans (kept_arg1 _), (h c main_arg2).trans (kept_arg2 _)⟩)
    (run_seq scopedRefs_eq scopedSems_eq defs main (fun _ => ops) main_eq (fun _ => ops_sub) m ρ (fun _ => ops_fresh))

end Cert.ReferenceIdeal.PValue

end
-- ==== Proof.RefValueRun.lean ====
import proofs.«419089_j1769526526580_1_alg».proof.Proof.RefValue
import proofs.«419089_j1769526526580_1_alg».proof.Proof.RefRun

/-!
  The reference's run, with its two results named as the two means of the mined vectors: the run ends with the
  result buffers at the last two stages, and the last two stages are the margin loss and the share.
-/

noncomputable section

namespace Cert.ReferenceIdeal.RefValue

open Cert.ReferenceIdeal Cert.ReferenceIdeal.Gen Cert.ReferenceIdeal.PRead
open Idealize.ShloMosaic Idealize.ShloMosaic.ValueIdx Idealize.ShloMosaic.TcCoe Idealize.SL.Sem Idealize.ShloMosaic.StableHlo
open Cert.Mining

/-- Every weakly fair execution of the reference terminates with its two results at the margin loss and the share
    of the mined vectors of the launch contents, the three arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
          = loss bcast_S_S8192 reducesTo_S8192_S_d0 h_S_
              (apVec (m ((c.tc : Thread nD τ).loc main_arg0))
                (val_main_v6 (F := Ideal) (m ((c.tc : Thread nD τ).loc main_arg1)) (m ((c.tc : Thread nD τ).loc main_arg2)))
                (m ((c.tc : Thread nD τ).loc main_arg1)))
              (anVec (m ((c.tc : Thread nD τ).loc main_arg0))
                (val_main_v6 (F := Ideal) (m ((c.tc : Thread nD τ).loc main_arg1)) (m ((c.tc : Thread nD τ).loc main_arg2)))
                (m ((c.tc : Thread nD τ).loc main_arg1)))
      ∧ r.2.mem ((c.tc : Thread nD τ).loc main_v42)
          = prec reducesTo_S8192_S_d0 h_S_
              (apVec (m ((c.tc : Thread nD τ).loc main_arg0))
                (val_main_v6 (F := Ideal) (m ((c.tc : Thread nD τ).loc main_arg1)) (m ((c.tc : Thread nD τ).loc main_arg2)))
                (m ((c.tc : Thread nD τ).loc main_arg1)))
              (anVec (m ((c.tc : Thread nD τ).loc main_arg0))
                (val_main_v6 (F := Ideal) (m ((c.tc : Thread nD τ).loc main_arg1)) (m ((c.tc : Thread nD τ).loc main_arg2)))
                (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans (loss_eq _ _ _),
      (h c).2.1.trans (prec_eq _ _ _), (h c).2.2⟩)
    (Cert.ReferenceIdeal.PValue.run (F := Ideal) m ρ)

end Cert.ReferenceIdeal.RefValue

end
-- ==== Proof.lean ====
/-
  Triplet-centre mining, blocked over rows and columns with two running columns, against the whole-matrix reference.

  Both programs pick a centre row for every sample by its label, take the squared norms of the features and of the
  picked centres, form the clamped distances √(max ε (‖x_R‖² + ‖y_C‖² − 2 x_R·y_C)), and reduce each row to its
  hardest positive (largest distance among the columns of the same label) and hardest negative (smallest among the
  others); the results are the mean margin loss max (ap − an + 0.2) 0 and the share of rows with an > ap. The
  reference reduces whole rows of the 8192 × 8192 matrix; the kernel walks 4 row blocks × 16 column groups, keeping a
  running maximum started at −∞ and a running minimum started at +∞, its two finite stand-ins named as those
  infinities. Over the extended reals the two agree because a maximum over 8192 columns is the running maximum over
  16 groups of 512 (and dually), the block product into a zero accumulator is the reference's contraction, and the
  closing lines are one text applied to equal vectors. The labels must lie in [0, 55): the kernel's gather fills a
  row with NaN for a label outside the table where the reference clamps; inside the range both gathers are one.
-/
import proofs.«419089_j1769526526580_1_alg».proof.Defs
import proofs.«419089_j1769526526580_1_alg».proof.Proof.Gen.Kernel.Frame
import proofs.«419089_j1769526526580_1_alg».proof.Proof.Gen.Pre_finite_inputs
import proofs.«419089_j1769526526580_1_alg».proof.Proof.KernelValue
import proofs.«419089_j1769526526580_1_alg».proof.Proof.RefValueRun

noncomputable section

namespace Cert.Proof

open Idealize.ShloMosaic Idealize.ShloMosaic.TcCoe Idealize.SL.Sem

/-- The centre rows the reference gathers are the ones the kernel's program gathers: one index normalisation, one
    gather, over the same two arrays. -/
theorem picked_same (m : (ℓ : Loc Cert.KernelIdeal.nD Cert.KernelIdeal.τ Cert.KernelIdeal.sig) → Buf (Elt Ideal) ℓ)
    (c : Dev Cert.KernelIdeal.nD) :
    Cert.ReferenceIdeal.PRead.val_main_v6 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Entry.picked m c := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The four named constants: the two stand-ins denote −∞ and +∞ by the certificate's table. -/
theorem preserves : Cert.preserves_Kernel_KernelIdeal :=
  ⟨IdealRules.named_const.statement Cert.KernelIdeal.κ "neg_big" .f32 0xF149F2CA#32 ⊥ rfl,
    IdealRules.named_const.statement Cert.KernelIdeal.κ "pos_big" .f32 0x7149F2CA#32 ⊤ rfl,
    IdealRules.named_const.statement Cert.KernelIdeal.κ "neg_big" .f32 0xF149F2CA#32 ⊥ rfl,
    IdealRules.named_const.statement Cert.KernelIdeal.κ "pos_big" .f32 0x7149F2CA#32 ⊤ rfl⟩

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2.2)
    (Cert.ReferenceIdeal.RefValue.run m ρ)

/-- Under the label range the kernel's two results and the reference's are the same two means of the same mined
    vectors of the inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := Cert.KernelIdeal.Entry.inRange_of_pre m hpre
  refine ⟨_, _, Cert.KernelIdeal.Result.run m ρ hr, ?_⟩
  refine (θ_run (Cert.ReferenceIdeal.defs (F := Ideal)) _ _).mono (fun _ h c => ?_) (Cert.ReferenceIdeal.RefValue.run m' ρ')
  obtain ⟨h0, h1, h2, h3, h4⟩ := h c
  obtain ⟨a0, a1, a2⟩ := hagree c
  refine ⟨h0.trans ?_, h1.trans ?_, h2, h3, h4⟩
  · rw [a0, a1, a2, picked_same m c]
  · rw [a0, a1, a2, picked_same m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
